-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_63" .f32 0x3C820821#32 ((1 / 63 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_c_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_c_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_c_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536 : Shape := ⟨2, ![16, 65536]⟩
abbrev S64x64 : Shape := ⟨2, ![64, 64]⟩
abbrev S64 : Shape := ⟨1, ![64]⟩
abbrev S_ : Shape := ⟨0, ![]⟩

class Facts : Prop where
  bcast_S_S16x65536 : S_.BroadcastsInDim S16x65536 (![] : Fin 0 → Fin S16x65536.rank)
  reducesTo_S16x65536_S_d0_1 : S16x65536.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x65536 .f32) (main_arg1 : FVec F S64x64 .f32) (main_arg2 : FVec F S64 .f32) : IVec S_ 1 :=
  let main_v0 : FVec F S16x65536 .f32 := Host.absf main_arg0
  let main_cst : FVec F S_ .f32 := constant S_ .f32 0x7F800000#32
  let main_v1 : FVec F S16x65536 .f32 := broadcastInDim S16x65536 ![] bcast_S_S16x65536 main_cst
  let main_v2 : IVec S16x65536 1 := cmpf .olt main_v0 main_v1
  let main_c : IVec S_ 1 := constantI S_ 1 1#1
  let main_v3 : IVec S_ 1 := (fun x v => Host.reduce IntOp.andi x v reducesTo_S16x65536_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x65536 : Shape := ⟨2, ![16, 65536]⟩
abbrev S64x64 : Shape := ⟨2, ![64, 64]⟩
abbrev S64 : Shape := ⟨1, ![64]⟩
abbrev S_ : Shape := ⟨0, ![]⟩
abbrev S16x65664 : Shape := ⟨2, ![16, 65664]⟩
abbrev S1x64 : Shape := ⟨2, ![1, 64]⟩
abbrev S16x4190272 : Shape := ⟨2, ![16, 4190272]⟩
abbrev S16x131072 : Shape := ⟨2, ![16, 131072]⟩
abbrev S16x2176 : Shape := ⟨2, ![16, 2176]⟩
abbrev S16x2048 : Shape := ⟨2, ![16, 2048]⟩
abbrev S16x1x2048 : Shape := ⟨3, ![16, 1, 2048]⟩
abbrev S16x64x2048 : Shape := ⟨3, ![16, 64, 2048]⟩
abbrev S16x2048x1 : Shape := ⟨3, ![16, 2048, 1]⟩
abbrev S16x2048x64 : Shape := ⟨3, ![16, 2048, 64]⟩
abbrev S32768x64 : Shape := ⟨2, ![32768, 64]⟩
abbrev S1x1x64 : Shape := ⟨3, ![1, 1, 64]⟩
abbrev S16x65473x64 : Shape := ⟨3, ![16, 65473, 64]⟩

abbrev nBuf : Space → Nat
  | .hbm => 15
  | .vmem => 6
  | .smem => 0
  | _ => 0

abbrev bufTy : (tb : Table) → Fin (tcTables nBuf tb) → BufTy
  | .hbm, ⟨0, _⟩ => ⟨S16x65536, .f32⟩
  | .hbm, ⟨1, _⟩ => ⟨S64x64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S16x65664, .f32⟩
  | .hbm, ⟨6, _⟩ => ⟨S64x64, .f32⟩
  | .hbm, ⟨7, _⟩ => ⟨S64x64, .bf16⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S16x4190272, .f32⟩
  | .hbm, ⟨13, _⟩ => ⟨S16x65473x64, .f32⟩
  | .hbm, ⟨14, _⟩ => ⟨S_, .i32⟩
  | .local _ .vmem, ⟨0, _⟩ => ⟨S16x65664, .f32⟩
  | .local _ .vmem, ⟨1, _⟩ => ⟨S64x64, .bf16⟩
  | .local _ .vmem, ⟨2, _⟩ => ⟨S1x64, .f32⟩
  | .local _ .vmem, ⟨3, _⟩ => ⟨S1x64, .f32⟩
  | .local _ .vmem, ⟨4, _⟩ => ⟨S16x131072, .f32⟩
  | .local _ .vmem, ⟨5, _⟩ => ⟨S16x131072, .f32⟩
  | _, _ => ⟨S16x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_off1 (i : grid0.Coords) : Fin 2 → Nat :=
  let c0 : Index := 0#32
  let arg0 : BitVec 32 := BitVec.ofNat 32 (i 0).val
  let c2048_i32 : BitVec 32 := 2048#32
  let v0 : BitVec 32 := Scalar.muli arg0 c2048_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x65664 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S16x65536_S16x65664_000_01280 : S16x65536.Pads (![0, 0] : Fin 2 → Nat) ![0, 128] ![0, 0] S16x65664
  h_S_ : 0 < S_.numel
  transposes_S64x64_S64x64_1_0 : S64x64.Transposes [1, 0] S64x64
  bitsLt_bf16_f32 : FTy.bits .bf16 < FTy.bits .f32
  reducesTo_S64x64_S64_d1 : S64x64.ReducesTo [1] S64
  shapeCasts_S64_S1x64 : S64.ShapeCasts S1x64
  h_S16x2176 : 0 < S16x2176.numel
  shapeCasts_S16x2176_S16x2176 : S16x2176.ShapeCasts S16x2176
  slices_S16x2176_o0_0_S16x2048 : S16x2176.Slices ![0, 0] S16x2048
  slices_S16x2176_o0_1_S16x2048 : S16x2176.Slices ![0, 1] S16x2048
  slices_S16x2176_o0_2_S16x2048 : S16x2176.Slices ![0, 2] S16x2048
  slices_S16x2176_o0_3_S16x2048 : S16x2176.Slices ![0, 3] S16x2048
  slices_S16x2176_o0_4_S16x2048 : S16x2176.Slices ![0, 4] S16x2048
  slices_S16x2176_o0_5_S16x2048 : S16x2176.Slices ![0, 5] S16x2048
  slices_S16x2176_o0_6_S16x2048 : S16x2176.Slices ![0, 6] S16x2048
  slices_S16x2176_o0_7_S16x2048 : S16x2176.Slices ![0, 7] S16x2048
  slices_S16x2176_o0_8_S16x2048 : S16x2176.Slices ![0, 8] S16x2048
  slices_S16x2176_o0_9_S16x2048 : S16x2176.Slices ![0, 9] S16x2048
  slices_S16x2176_o0_10_S16x2048 : S16x2176.Slices ![0, 10] S16x2048
  slices_S16x2176_o0_11_S16x2048 : S16x2176.Slices ![0, 11] S16x2048
  slices_S16x2176_o0_12_S16x2048 : S16x2176.Slices ![0, 12] S16x2048
  slices_S16x2176_o0_13_S16x2048 : S16x2176.Slices ![0, 13] S16x2048
  slices_S16x2176_o0_14_S16x2048 : S16x2176.Slices ![0, 14] S16x2048
  slices_S16x2176_o0_15_S16x2048 : S16x2176.Slices ![0, 15] S16x2048
  slices_S16x2176_o0_16_S16x2048 : S16x2176.Slices ![0, 16] S16x2048
  slices_S16x2176_o0_17_S16x2048 : S16x2176.Slices ![0, 17] S16x2048
  slices_S16x2176_o0_18_S16x2048 : S16x2176.Slices ![0, 18] S16x2048
  slices_S16x2176_o0_19_S16x2048 : S16x2176.Slices ![0, 19] S16x2048
  slices_S16x2176_o0_20_S16x2048 : S16x2176.Slices ![0, 20] S16x2048
  slices_S16x2176_o0_21_S16x2048 : S16x2176.Slices ![0, 21] S16x2048
  slices_S16x2176_o0_22_S16x2048 : S16x2176.Slices ![0, 22] S16x2048
  slices_S16x2176_o0_23_S16x2048 : S16x2176.Slices ![0, 23] S16x2048
  slices_S16x2176_o0_24_S16x2048 : S16x2176.Slices ![0, 24] S16x2048
  slices_S16x2176_o0_25_S16x2048 : S16x2176.Slices ![0, 25] S16x2048
  slices_S16x2176_o0_26_S16x2048 : S16x2176.Slices ![0, 26] S16x2048
  slices_S16x2176_o0_27_S16x2048 : S16x2176.Slices ![0, 27] S16x2048
  slices_S16x2176_o0_28_S16x2048 : S16x2176.Slices ![0, 28] S16x2048
  slices_S16x2176_o0_29_S16x2048 : S16x2176.Slices ![0, 29] S16x2048
  slices_S16x2176_o0_30_S16x2048 : S16x2176.Slices ![0, 30] S16x2048
  slices_S16x2176_o0_31_S16x2048 : S16x2176.Slices ![0, 31] S16x2048
  slices_S16x2176_o0_32_S16x2048 : S16x2176.Slices ![0, 32] S16x2048
  slices_S16x2176_o0_33_S16x2048 : S16x2176.Slices ![0, 33] S16x2048
  slices_S16x2176_o0_34_S16x2048 : S16x2176.Slices ![0, 34] S16x2048
  slices_S16x2176_o0_35_S16x2048 : S16x2176.Slices ![0, 35] S16x2048
  slices_S16x2176_o0_36_S16x2048 : S16x2176.Slices ![0, 36] S16x2048
  slices_S16x2176_o0_37_S16x2048 : S16x2176.Slices ![0, 37] S16x2048
  slices_S16x2176_o0_38_S16x2048 : S16x2176.Slices ![0, 38] S16x2048
  slices_S16x2176_o0_39_S16x2048 : S16x2176.Slices ![0, 39] S16x2048
  slices_S16x2176_o0_40_S16x2048 : S16x2176.Slices ![0, 40] S16x2048
  slices_S16x2176_o0_41_S16x2048 : S16x2176.Slices ![0, 41] S16x2048
  slices_S16x2176_o0_42_S16x2048 : S16x2176.Slices ![0, 42] S16x2048
  slices_S16x2176_o0_43_S16x2048 : S16x2176.Slices ![0, 43] S16x2048
  slices_S16x2176_o0_44_S16x2048 : S16x2176.Slices ![0, 44] S16x2048
  slices_S16x2176_o0_45_S16x2048 : S16x2176.Slices ![0, 45] S16x2048
  slices_S16x2176_o0_46_S16x2048 : S16x2176.Slices ![0, 46] S16x2048
  slices_S16x2176_o0_47_S16x2048 : S16x2176.Slices ![0, 47] S16x2048
  slices_S16x2176_o0_48_S16x2048 : S16x2176.Slices ![0, 48] S16x2048
  slices_S16x2176_o0_49_S16x2048 : S16x2176.Slices ![0, 49] S16x2048
  slices_S16x2176_o0_50_S16x2048 : S16x2176.Slices ![0, 50] S16x2048
  slices_S16x2176_o0_51_S16x2048 : S16x2176.Slices ![0, 51] S16x2048
  slices_S16x2176_o0_52_S16x2048 : S16x2176.Slices ![0, 52] S16x2048
  slices_S16x2176_o0_53_S16x2048 : S16x2176.Slices ![0, 53] S16x2048
  slices_S16x2176_o0_54_S16x2048 : S16x2176.Slices ![0, 54] S16x2048
  slices_S16x2176_o0_55_S16x2048 : S16x2176.Slices ![0, 55] S16x2048
  slices_S16x2176_o0_56_S16x2048 : S16x2176.Slices ![0, 56] S16x2048
  slices_S16x2176_o0_57_S16x2048 : S16x2176.Slices ![0, 57] S16x2048
  slices_S16x2176_o0_58_S16x2048 : S16x2176.Slices ![0, 58] S16x2048
  slices_S16x2176_o0_59_S16x2048 : S16x2176.Slices ![0, 59] S16x2048
  slices_S16x2176_o0_60_S16x2048 : S16x2176.Slices ![0, 60] S16x2048
  slices_S16x2176_o0_61_S16x2048 : S16x2176.Slices ![0, 61] S16x2048
  slices_S16x2176_o0_62_S16x2048 : S16x2176.Slices ![0, 62] S16x2048
  slices_S16x2176_o0_63_S16x2048 : S16x2176.Slices ![0, 63] S16x2048
  shapeCasts_S16x2048_S16x1x2048 : S16x2048.ShapeCasts S16x1x2048
  concatenates_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x1x2048_S16x64x2048_d1 : Shape.Concatenates (S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: S16x1x2048 :: []) S16x64x2048 1
  reduces_S16x64x2048_S16x2048 : S16x64x2048.Reduces [1] S16x2048
  broadcasts_S16x1x2048_S16x64x2048 : S16x1x2048.Broadcasts S16x64x2048
  shapeCasts_S16x2048_S16x2048x1 : S16x2048.ShapeCasts S16x2048x1
  transposes_S16x64x2048_p0_2_1_S16x2048x64 : S16x64x2048.Transposes [0, 2, 1] S16x2048x64
  shapeCasts_S16x2048x64_S32768x64 : S16x2048x64.ShapeCasts S32768x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32768x64_S16x2048x64 : S32768x64.ShapeCasts S16x2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S16x2048x1_S16x2048x64 : S16x2048x1.Broadcasts S16x2048x64
  broadcasts_S1x1x64_S16x2048x64 : S1x1x64.Broadcasts S16x2048x64
  shapeCasts_S16x2048x64_S16x131072 : S16x2048x64.ShapeCasts S16x131072
  inb_S16x131072_S16x131072_0_0 : ∀ a, (![0, 0] : Fin 2 → Nat) a + S16x131072.size a ≤ S16x131072.size a
  h_S16x131072 : 0 < S16x131072.numel
  shapeCasts_S16x4190272_S16x65473x64 : S16x4190272.ShapeCasts S16x65473x64
  dot_S32768x64_S64x64_S32768x64_1_0_0_1_n_n_wf : DotDims.WF S32768x64 S64x64 S32768x64 [1] [0] [0] [1] [] []
  hrank0 : 0 < grid0.rank
  k0_mult1_dvd : ∀ i : grid0.Coords, 128 ∣ (k0_mult1 i).toNat
  k0_off1_inb : ∀ i : grid0.Coords, ∀ a, (k0_off1 i) a + S16x2176.size a ≤ S16x65664.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x65664.size a ≤ S16x65664.size a
  hwx0_0 : ∀ i : grid0.Coords, EltTy.bits .f32 = 32 ∨ (Rect.block (s := S16x65664) S16x65664.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16x131072.size a < S16x4190272.size a
  hwx0_4 : ∀ i : grid0.Coords, EltTy.bits .f32 = 32 ∨ (Rect.unit (s := S16x4190272) (fun a => cc0_transform_4 i a * S16x131072.size a) (fun a => (Pipeline.Clip.of (cc0_transform_4 i a) (S16x131072.size a) (S16x4190272.size a)).extent (S16x131072.size a)) fun a => Pipeline.Clip.inb (Pipeline.Clip.ok_of (hstart0_4 i a))).WholeWords (EltTy.packing .f32)
  hwxs0_4 : ∀ i : grid0.Coords, EltTy.bits .f32 = 32 ∨ (Rect.unit (s := S16x131072) (fun _ => 0) (fun a => (Pipeline.Clip.of (cc0_transform_4 i a) (S16x131072.size a) (S16x4190272.size a)).extent (S16x131072.size a)) fun a => (Nat.zero_add _).trans_le (Pipeline.Clip.extent_le (Pipeline.Clip.ok_of (hstart0_4 i a)))).WholeWords (EltTy.packing .f32)

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf

abbrev win0_0 : Pipeline.Window sig grid0 :=
  Pipeline.Window.ofSpec (Memref.whole main_v0) S16x65664.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v6) S16x131072.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x65536 : Shape := ⟨2, ![16, 65536]⟩
abbrev S64x64 : Shape := ⟨2, ![64, 64]⟩
abbrev S64 : Shape := ⟨1, ![64]⟩
abbrev S_ : Shape := ⟨0, ![]⟩
abbrev S16x65599 : Shape := ⟨2, ![16, 65599]⟩
abbrev S65536 : Shape := ⟨1, ![65536]⟩
abbrev S65536x1 : Shape := ⟨2, ![65536, 1]⟩
abbrev S1x64 : Shape := ⟨2, ![1, 64]⟩
abbrev S65536x64 : Shape := ⟨2, ![65536, 64]⟩
abbrev S65536x64x1 : Shape := ⟨3, ![65536, 64, 1]⟩
abbrev S16x65536x64 : Shape := ⟨3, ![16, 65536, 64]⟩
abbrev S16x65536x1 : Shape := ⟨3, ![16, 65536, 1]⟩
abbrev S1x1x64 : Shape := ⟨3, ![1, 1, 64]⟩
abbrev S16x65473x64 : Shape := ⟨3, ![16, 65473, 64]⟩

abbrev nBuf : Space → Nat
  | .hbm => 69
  | .vmem => 0
  | .smem => 0
  | _ => 0

abbrev bufTy : (tb : Table) → Fin (tcTables nBuf tb) → BufTy
  | .hbm, ⟨0, _⟩ => ⟨S16x65536, .f32⟩
  | .hbm, ⟨1, _⟩ => ⟨S64x64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S16x65599, .f32⟩
  | .hbm, ⟨6, _⟩ => ⟨S65536, .i32⟩
  | .hbm, ⟨7, _⟩ => ⟨S65536x1, .i32⟩
  | .hbm, ⟨8, _⟩ => ⟨S64, .i32⟩
  | .hbm, ⟨9, _⟩ => ⟨S1x64, .i32⟩
  | .hbm, ⟨10, _⟩ => ⟨S65536x64, .i32⟩
  | .hbm, ⟨11, _⟩ => ⟨S65536x64, .i32⟩
  | .hbm, ⟨12, _⟩ => ⟨S65536x64, .i32⟩
  | .hbm, ⟨13, _⟩ => ⟨S_, .i32⟩
  | .hbm, ⟨14, _⟩ => ⟨S65536x64, .i32⟩
  | .hbm, ⟨15, _⟩ => ⟨S65536x64, .i1⟩
  | .hbm, ⟨16, _⟩ => ⟨S_, .i32⟩
  | .hbm, ⟨17, _⟩ => ⟨S65536x64, .i32⟩
  | .hbm, ⟨18, _⟩ => ⟨S65536x64, .i32⟩
  | .hbm, ⟨19, _⟩ => ⟨S65536x64, .i32⟩
  | .hbm, ⟨20, _⟩ => ⟨S65536x64x1, .i32⟩
  | .hbm, ⟨21, _⟩ => ⟨S16x65536x64, .f32⟩
  | .hbm, ⟨22, _⟩ => ⟨S_, .f32⟩
  | .hbm, ⟨23, _⟩ => ⟨S16x65536, .f32⟩
  | .hbm, ⟨24, _⟩ => ⟨S16x65536x1, .f32⟩
  | .hbm, ⟨25, _⟩ => ⟨S_, .f32⟩
  | .hbm, ⟨26, _⟩ => ⟨S16x65536x1, .f32⟩
  | .hbm, ⟨27, _⟩ => ⟨S16x65536x1, .f32⟩
  | .hbm, ⟨28, _⟩ => ⟨S_, .i32⟩
  | .hbm, ⟨29, _⟩ => ⟨S_, .f32⟩
  | .hbm, ⟨30, _⟩ => ⟨S16x65536, .f32⟩
  | .hbm, ⟨31, _⟩ => ⟨S16x65536x1, .f32⟩
  | .hbm, ⟨32, _⟩ => ⟨S_, .f32⟩
  | .hbm, ⟨33, _⟩ => ⟨S16x65536x1, .f32⟩
  | .hbm, ⟨34, _⟩ => ⟨S16x65536x1, .f32⟩
  | .hbm, ⟨35, _⟩ => ⟨S16x65536x64, .f32⟩
  | .hbm, ⟨36, _⟩ => ⟨S16x65536x64, .f32⟩
  | .hbm, ⟨37, _⟩ => ⟨S16x65536x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x65536, .f32⟩
  | .hbm, ⟨43, _⟩ => ⟨S16x65536x1, .f32⟩
  | .hbm, ⟨44, _⟩ => ⟨S16x65536x1, .f32⟩
  | .hbm, ⟨45, _⟩ => ⟨S16x65536x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S16x65536x1, .f32⟩
  | .hbm, ⟨51, _⟩ => ⟨S16x65536x1, .f32⟩
  | .hbm, ⟨52, _⟩ => ⟨S16x65536x1, .f32⟩
  | .hbm, ⟨53, _⟩ => ⟨S16x65536x64, .f32⟩
  | .hbm, ⟨54, _⟩ => ⟨S16x65536x64, .f32⟩
  | .hbm, ⟨55, _⟩ => ⟨S_, .f32⟩
  | .hbm, ⟨56, _⟩ => ⟨S16x65536x1, .f32⟩
  | .hbm, ⟨57, _⟩ => ⟨S16x65536x1, .f32⟩
  | .hbm, ⟨58, _⟩ => ⟨S16x65536x64, .f32⟩
  | .hbm, ⟨59, _⟩ => ⟨S16x65536x64, .f32⟩
  | .hbm, ⟨60, _⟩ => ⟨S16x65536x64, .f32⟩
  | .hbm, ⟨61, _⟩ => ⟨S1x1x64, .f32⟩
  | .hbm, ⟨62, _⟩ => ⟨S16x65536x64, .f32⟩
  | .hbm, ⟨63, _⟩ => ⟨S16x65536x64, .f32⟩
  | .hbm, ⟨64, _⟩ => ⟨S_, .f32⟩
  | .hbm, ⟨65, _⟩ => ⟨S16x65536x64, .f32⟩
  | .hbm, ⟨66, _⟩ => ⟨S16x65536x64, .f32⟩
  | .hbm, ⟨67, _⟩ => ⟨S16x65473x64, .f32⟩
  | .hbm, ⟨68, _⟩ => ⟨S_, .i32⟩
  | _, _ => ⟨S16x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_cst_0 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_cst_1 : Ref sig .tc := ⟨.hbm, 39, rfl⟩
abbrev main_call1_call0_v8 : Ref sig .tc := ⟨.hbm, 40, rfl⟩
abbrev main_call1_call0_cst_2 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_call0_v12 : Ref sig .tc := ⟨.hbm, 45, rfl⟩
abbrev main_call1_call0_cst_3 : Ref sig .tc := ⟨.hbm, 46, rfl⟩
abbrev main_call1_call0_v13 : Ref sig .tc := ⟨.hbm, 47, rfl⟩
abbrev main_call1_call0_cst_4 : Ref sig .tc := ⟨.hbm, 48, rfl⟩
abbrev main_call1_call0_call0_v0 : Ref sig .tc := ⟨.hbm, 49, rfl⟩
abbrev main_call1_call0_call0_v1 : Ref sig .tc := ⟨.hbm, 50, rfl⟩
abbrev main_call1_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_call2_cst : Ref sig .tc := ⟨.hbm, 64, rfl⟩
abbrev main_call2_v0 : Ref sig .tc := ⟨.hbm, 65, rfl⟩
abbrev main_v30 : Ref sig .tc := ⟨.hbm, 66, rfl⟩
abbrev main_v31 : Ref sig .tc := ⟨.hbm, 67, rfl⟩
abbrev main_c_5 : Ref sig .tc := ⟨.hbm, 68, rfl⟩

abbrev nD : Nat := 1
abbrev τ : Topo := Topo.v7x

variable {F : FTy → Type} [FloatOps F]

class Facts₀ : Prop where
  pads_S16x65536_S16x65599_000_6300 : S16x65536.Pads (![0, 63] : Fin 2 → Nat) ![0, 0] ![0, 0] S16x65599
  h_S_ : 0 < S_.numel
  bcast_S65536_S65536x1_0 : S65536.BroadcastsInDim S65536x1 (![0] : Fin 1 → Fin S65536x1.rank)
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S65536x64_S65536x64x1_0_1 : S65536x64.BroadcastsInDim S65536x64x1 (![0, 1] : Fin 2 → Fin S65536x64x1.rank)
  reducesTo_S16x65536x64_S16x65536_d2 : S16x65536x64.ReducesTo [2] S16x65536
  bcast_S16x65536_S16x65536x1_0_1 : S16x65536.BroadcastsInDim S16x65536x1 (![0, 1] : Fin 2 → Fin S16x65536x1.rank)
  bcast_S_S16x65536x1 : S_.BroadcastsInDim S16x65536x1 (![] : Fin 0 → Fin S16x65536x1.rank)
  bcast_S16x65536x1_S16x65536x64_0_1_2 : S16x65536x1.BroadcastsInDim S16x65536x64 (![0, 1, 2] : Fin 3 → Fin S16x65536x64.rank)
  bcast_S64_S1x1x64_2 : S64.BroadcastsInDim S1x1x64 (![2] : Fin 1 → Fin S1x1x64.rank)
  bcast_S1x1x64_S16x65536x64_0_1_2 : S1x1x64.BroadcastsInDim S16x65536x64 (![0, 1, 2] : Fin 3 → Fin S16x65536x64.rank)
  bcast_S_S16x65536x64 : S_.BroadcastsInDim S16x65536x64 (![] : Fin 0 → Fin S16x65536x64.rank)
  slices_S16x65536x64_S16x65473x64_0_63_0 : S16x65536x64.Slices ![0, 63, 0] S16x65473x64
  gather_S16x65599_S65536x64x1_S16x65536x64_0_1_n_n_1_2_161_wf : GatherDims.WF S16x65599 S65536x64x1 S16x65536x64 [0] [1] [] [1] [] 2 ![16, 1]
  dot_S16x65536x64_S64x64_S16x65536x64_2_1_01_0_n_n_wf : DotDims.WF S16x65536x64 S64x64 S16x65536x64 [2] [1] [0, 1] [0] [] []

variable [Facts₀]

def gather_S16x65599_S65536x64x1_S16x65536x64_0_1_n_n_1_2_161 : GatherDims S16x65599 S65536x64x1 S16x65536x64 where
  offsetDims := [0]
  collapsedSliceDims := [1]
  operandBatchingDims := []
  startIndicesBatchingDims := []
  startIndexMap := [1]
  indexVectorDim := 2
  sliceSizes := ![16, 1]
  wf := gather_S16x65599_S65536x64x1_S16x65536x64_0_1_n_n_1_2_161_wf
def dot_S16x65536x64_S64x64_S16x65536x64_2_1_01_0_n_n : DotDims S16x65536x64 S64x64 S16x65536x64 where
  lhsContracting := [2]
  rhsContracting := [1]
  lhsNonContracting := [0, 1]
  rhsNonContracting := [0]
  lhsBatch := []
  rhsBatch := []
  wf := dot_S16x65536x64_S64x64_S16x65536x64_2_1_01_0_n_n_wf

class Facts : Prop extends Facts₀ where

variable [Facts]
-- ==== Proof.Spec.lean ====
/-
  What both programs compute, as formulas over the argument arrays, and the law that joins them.

  Row `b` of `x` is cut into the 65473 windows of 64 consecutive samples,
  `w_h = x[b, i + h]`, `h < 64`.  Each window is normalised by its mean `μ = (Σ w_h) / 64` and
  its unbiased deviation `σ = √(Σ (w_h − μ)² / 63)`, multiplied by the weight matrix, shifted by
  the bias and clamped at zero.

  The reference normalises first:      `max (Σ_h ((w_h − μ) / (σ + ε)) · W[k,h] + b[k]) 0`.
  The kernel normalises the product:   `max ((1 / (σ + ε)) · (Σ_h w_h · W[k,h] − μ · Σ_h W[k,h]) + b[k]) 0`,
  with `μ = (Σ w_h) · (1/64)` and the variance as `(Σ …) · (1/63)`.

  On the extended reals the two agree when `x` and `W` are finite: then every quantity above is a
  real number, `σ + ε > 0`, and pulling the common factor `1 / (σ + ε)` and the constant `μ` out of
  the sum over `h` is distributivity in `ℝ`.  (At an infinite entry distributivity fails, which is
  why the finiteness of the inputs is used.)
-/
import Idealize.ShloMosaic.PureOps.Ideal
import Idealize.ShloMosaic.PureOps.Ideal.Laws
import Idealize.ShloMosaic.Lib.ValueIdx

noncomputable section

namespace Hankel

open Idealize.ShloMosaic Idealize.ShloMosaic.ValueIdx

/-- The shapes of the arguments, of the padded signal the kernel stages, and of the result. -/
abbrev SX : Shape := ⟨2, ![16, 65536]⟩
abbrev SXP : Shape := ⟨2, ![16, 65664]⟩
abbrev SW : Shape := ⟨2, ![64, 64]⟩
abbrev SB : Shape := ⟨1, ![64]⟩
abbrev SRow : Shape := ⟨2, ![1, 64]⟩
abbrev SOut : Shape := ⟨3, ![16, 65473, 64]⟩

/-- The literals both programs share, kept as their words: `ε` (the f32 nearest `10⁻⁶`). -/
abbrev cEps : EReal := Ideal.ofBits .f32 0x358637BD#32

/-- Sample `h` of the window of row `b` that starts at `i`. -/
def win (x : SX.Idx → EReal) (b : Fin 16) (i : Fin 65473) (h : Fin 64) : EReal :=
  x (ix2 b ⟨i.val + h.val, by have := i.isLt; have := h.isLt; omega⟩)

/-- The kernel's arithmetic at result entry `(b, i, k)`: the statistics of the window, then the
    product with the weights normalised afterwards. -/
def kerVal (x : SX.Idx → EReal) (W : SW.Idx → EReal) (bias : SB.Idx → EReal)
    (b : Fin 16) (i : Fin 65473) (k : Fin 64) : EReal :=
  let mean : EReal := (∑ h : Fin 64, win x b i h) * ((1 / 64 : ℝ) : EReal)
  let var : EReal := (∑ h : Fin 64, (win x b i h - mean) * (win x b i h - mean)) * ((1 / 63 : ℝ) : EReal)
  let inv : EReal := Ideal.div 1 (Ideal.sqrt var + cEps)
  max (inv * ((∑ h : Fin 64, win x b i h * W (ix2 k h)) - mean * (∑ h : Fin 64, W (ix2 k h))) + bias (ix1 k)) 0

/-- The reference's arithmetic at result entry `(b, i, k)`: the window normalised entry by entry,
    then the product with the weights. -/
def refVal (x : SX.Idx → EReal) (W : SW.Idx → EReal) (bias : SB.Idx → EReal)
    (b : Fin 16) (i : Fin 65473) (k : Fin 64) : EReal :=
  let mu : EReal := Ideal.div (∑ h : Fin 64, win x b i h) ((64 : ℝ) : EReal)
  let var : EReal := Ideal.div (∑ h : Fin 64, (win x b i h - mu) * (win x b i h - mu)) ((63 : ℝ) : EReal)
  let den : EReal := Ideal.sqrt var + cEps
  max ((∑ h : Fin 64, Ideal.div (win x b i h - mu) den * W (ix2 k h)) + bias (ix1 k)) 0

/-- The two results as whole arrays. -/
def kerArr (x : SX.Idx → EReal) (W : SW.Idx → EReal) (bias : SB.Idx → EReal) : SOut.Idx → EReal :=
  fun j => kerVal x W bias (j 0) (j 1) (j 2)
def refArr (x : SX.Idx → EReal) (W : SW.Idx → EReal) (bias : SB.Idx → EReal) : SOut.Idx → EReal :=
  fun j => refVal x W bias (j 0) (j 1) (j 2)

/-! ## One block of the kernel

At a grid point the body sees the whole padded signal `xp` (the signal with 128 zero columns
appended), the transposed weights `wt[h,k] = W[k,h]`, the row of weight sums `ws[0,k]` and the row
of biases `bs[0,k]`, and writes the 2048 × 64 entries of the windows that start at
`start, start+1, …, start+2047`. -/

/-- Sample `h` of the window of row `b` that starts at column `start + r` of the padded signal. -/
def pwin (xp : SXP.Idx → EReal) (start : Nat) (hs : start + 2176 ≤ 65664) (b : Fin 16) (r : Fin 2048) (h : Fin 64) : EReal :=
  xp (ix2 b ⟨start + r.val + h.val, by have := r.isLt; have := h.isLt; omega⟩)

/-- Entry `(b, r, k)` of the block the body writes when its slice of the padded signal starts at
    column `start`. -/
def blkVal (xp : SXP.Idx → EReal) (wt : SW.Idx → EReal) (ws bs : SRow.Idx → EReal)
    (start : Nat) (hs : start + 2176 ≤ 65664) (b : Fin 16) (r : Fin 2048) (k : Fin 64) : EReal :=
  let mean : EReal := (∑ h : Fin 64, pwin xp start hs b r h) * ((1 / 64 : ℝ) : EReal)
  let var : EReal := (∑ h : Fin 64, (pwin xp start hs b r h - mean) * (pwin xp start hs b r h - mean)) * ((1 / 63 : ℝ) : EReal)
  let inv : EReal := Ideal.div 1 (Ideal.sqrt var + cEps)
  max (inv * ((∑ h : Fin 64, pwin xp start hs b r h * wt (ix2 h k)) - mean * ws (ix2 0 k)) + bs (ix2 0 k)) 0

/-! ## The literals' values -/

theorem ofBits_one : Ideal.ofBits .f32 0x3F800000#32 = (1 : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

/-- `ε` is a positive real: the word's exponent field is 107 and its fraction 407485, so it denotes
    `(2²³ + 407485) · 2⁻⁴³`. -/
theorem cEps_pos : ∃ e : ℝ, 0 < e ∧ cEps = (e : EReal) := by
  refine ⟨(8796093 : ℝ) * (2 : ℝ) ^ (-43 : ℤ), by positivity, ?_⟩
  simp [cEps, Ideal.ofBits, Ideal.ieee, -EReal.coe_mul]

/-! ## The law -/

/-- A finite sum of reals, summed in the extended reals. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The square root of a nonnegative real, in the extended reals. -/
theorem sqrt_coe_of_nonneg {v : ℝ} (hv : 0 ≤ v) : Ideal.sqrt ((v : ℝ) : EReal) = ((Real.sqrt v : ℝ) : EReal) := by
  show (if v < 0 then (⊥ : EReal) else ((Real.sqrt v : ℝ) : EReal)) = _
  rw [if_neg (not_lt.mpr hv)]

/-- The heart of it, among reals: with `d ≠ 0`, the product normalised afterwards is the sum of the
    normalised entries' products — the factor `1/d` and the constant `μ` leave the sum over `h`. -/
theorem normalise_after (w Wk : Fin 64 → ℝ) (μ d : ℝ) :
    (1 / d) * ((∑ h, w h * Wk h) - μ * (∑ h, Wk h)) = ∑ h, ((w h - μ) * (1 / d)) * Wk h := by
  rw [Finset.mul_sum, ← Finset.sum_sub_distrib, Finset.mul_sum]
  refine Finset.sum_congr rfl fun h _ => ?_
  ring

/-- With finite samples and finite weights the kernel's arrangement and the reference's are the
    same number. -/
theorem kerVal_eq_refVal (x : SX.Idx → EReal) (W : SW.Idx → EReal) (bias : SB.Idx → EReal)
    (hx : ∀ j, ∃ r : ℝ, x j = (r : EReal)) (hW : ∀ j, ∃ r : ℝ, W j = (r : EReal))
    (b : Fin 16) (i : Fin 65473) (k : Fin 64) :
    kerVal x W bias b i k = refVal x W bias b i k := by
  choose xr hxr using hx
  choose Wr hWr using hW
  obtain ⟨e, he, hce⟩ := cEps_pos
  -- the window and the weight row as reals
  let w : Fin 64 → ℝ := fun h => xr (ix2 b ⟨i.val + h.val, by have := i.isLt; have := h.isLt; omega⟩)
  let Wk : Fin 64 → ℝ := fun h => Wr (ix2 k h)
  have hwin : ∀ h, win x b i h = ((w h : ℝ) : EReal) := fun h => hxr _
  have hWk : ∀ h, W (ix2 k h) = ((Wk h : ℝ) : EReal) := fun h => hWr _
  -- the mean, the variance and the denominator are reals, the same on both sides
  let μ : ℝ := (∑ h, w h) * (1 / 64)
  let v : ℝ := (∑ h, (w h - μ) * (w h - μ)) * (1 / 63)
  have hv : 0 ≤ v := mul_nonneg (Finset.sum_nonneg fun h _ => mul_self_nonneg _) (by norm_num)
  let d : ℝ := Real.sqrt v + e
  have hd : d ≠ 0 := ne_of_gt (add_pos_of_nonneg_of_pos (Real.sqrt_nonneg v) he)
  have hmean : (∑ h : Fin 64, ((w h : ℝ) : EReal)) * ((1 / 64 : ℝ) : EReal) = ((μ : ℝ) : EReal) := by
    rw [coe_sum, ← EReal.coe_mul]
  have hvar : (∑ h : Fin 64, (((w h : ℝ) : EReal) - ((μ : ℝ) : EReal)) * (((w h : ℝ) : EReal) - ((μ : ℝ) : EReal)))
      * ((1 / 63 : ℝ) : EReal) = ((v : ℝ) : EReal) := by
    simp only [← EReal.coe_sub, ← EReal.coe_mul]
    rw [coe_sum, ← EReal.coe_mul]
  have hden : Ideal.sqrt ((v : ℝ) : EReal) + cEps = ((d : ℝ) : EReal) := by
    rw [sqrt_coe_of_nonneg hv, hce, ← EReal.coe_add]
  unfold kerVal refVal
  simp only [hwin, hWk]
  rw [Ideal.div_coe (by norm_num : (64 : ℝ) ≠ 0), Ideal.div_coe (by norm_num : (63 : ℝ) ≠ 0)]
  simp only [hmean, hvar, hden]
  rw [Ideal.div_coe hd]
  simp only [Ideal.div_coe hd]
  congr 2
  simp only [← EReal.coe_sub, ← EReal.coe_mul, one_mul]
  rw [coe_sum, coe_sum, coe_sum, ← EReal.coe_mul, ← EReal.coe_sub, ← EReal.coe_mul]
  exact congrArg _ (normalise_after w Wk μ d)

theorem kerArr_eq_refArr (x : SX.Idx → EReal) (W : SW.Idx → EReal) (bias : SB.Idx → EReal)
    (hx : ∀ j, ∃ r : ℝ, x j = (r : EReal)) (hW : ∀ j, ∃ r : ℝ, W j = (r : EReal)) :
    kerArr x W bias = refArr x W bias :=
  funext fun j => kerVal_eq_refVal x W bias hx hW (j 0) (j 1) (j 2)

end Hankel

end
-- ==== Proof.Finite.lean ====
/-
  From the precondition to real numbers.  The precondition says, array by array, that every entry's
  magnitude is below `+∞`; an extended real with `max a (−a) < ⊤` is neither infinity, so it is a
  real number.  The law that joins the two programs is distributivity, which holds among reals.
-/
import proofs.«415342_j17059610100042_3_alg».proof.Pre_finite_inputs
import proofs.«415342_j17059610100042_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Hankel.Finite

open Idealize.ShloMosaic Cert.Pre_finite_inputs Cert.Pre_finite_inputs.Facts

instance : Subsingleton S_.Idx := ⟨fun a b => funext fun d => d.elim0⟩

/-- An extended real whose magnitude compares below the word of `+∞` is a real. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  have hlt : max a (-a) < ⊤ := by
    by_contra hn
    simp [Ideal.cmp, hn] at h
  induction a using EReal.rec with
  | bot => simp at hlt
  | coe r => exact ⟨r, rfl⟩
  | top => simp at hlt

/-- Under the precondition every entry of the signal and of the weights is a real number. -/
theorem reals_of_pre (x : FVec Ideal S16x65536 .f32) (W : FVec Ideal S64x64 .f32) (bias : FVec Ideal S64 .f32)
    (h : Cert.Pre_finite_inputs.fn (F := Ideal) x W bias = fun _ => 1#1) :
    (∀ j, ∃ r : ℝ, x j = (r : EReal)) ∧ (∀ j, ∃ r : ℝ, W j = (r : EReal)) := by
  have h0 := congrFun h ValueIdx.ix0
  dsimp only [Cert.Pre_finite_inputs.fn] at h0
  obtain ⟨h1, _⟩ := IntOp.andi_eq_one.1 h0
  obtain ⟨hx, hW⟩ := IntOp.andi_eq_one.1 h1
  refine ⟨fun j => ?_, fun j => ?_⟩
  · exact real_of_abs_lt (x j) (Host.reduce_andi_all _ _ _ _ _ hx j)
  · exact real_of_abs_lt (W j) (Host.reduce_andi_all _ _ _ _ _ hW j)

end Hankel.Finite

end
-- ==== Proof.KArgs.lean ====
/-
  The body's intermediate values as functions of the slice `v3` of the padded signal it loads
  (16 rows, 2176 columns from the point's first column): the 64 copies of the slice shifted by
  `h = 0 … 63` columns and stacked along a new middle axis (`stk`), the windows' means
  (`meanOf`), the reciprocals of their deviations plus `ε` (`invOf`), and the windows against the
  weights (`prodOf`).  Each is the printed body's own term; the names only fix the argument list.
-/
import proofs.«415342_j17059610100042_3_alg».proof.Proof.Gen.KernelIdeal.Skeleton

set_option maxRecDepth 16384

noncomputable section

namespace Cert.KernelIdeal.KBlock

open Idealize.ShloMosaic Cert.KernelIdeal Cert.KernelIdeal.Gen

variable {F : FTy → Type} [FloatOps F] [Named F]

/-- The stacked windows: entry `(b, h, t)` is the slice at row `b`, column `t + h`. -/
abbrev stk (v3 : Vec F S16x2176 .f32) : FVec F S16x64x2048 .f32 :=
  k0_pay115 (k0_pay51 v3) (k0_pay52 v3) (k0_pay53 v3) (k0_pay54 v3) (k0_pay55 (k0_pay2 v3)) (k0_pay56 (k0_pay2 v3)) (k0_pay57 (k0_pay2 v3)) (k0_pay58 (k0_pay2 v3)) (k0_pay59 (k0_pay2 v3)) (k0_pay60 (k0_pay2 v3)) (k0_pay61 (k0_pay2 v3)) (k0_pay62 (k0_pay2 v3)) (k0_pay63 (k0_pay2 v3)) (k0_pay64 (k0_pay2 v3)) (k0_pay65 (k0_pay2 v3)) (k0_pay66 (k0_pay2 v3)) (k0_pay67 (k0_pay3 v3)) (k0_pay68 (k0_pay4 v3)) (k0_pay69 (k0_pay5 v3)) (k0_pay70 (k0_pay6 v3)) (k0_pay71 (k0_pay7 v3)) (k0_pay72 (k0_pay8 v3)) (k0_pay73 (k0_pay9 v3)) (k0_pay74 (k0_pay10 v3)) (k0_pay75 (k0_pay11 v3)) (k0_pay76 (k0_pay12 v3)) (k0_pay77 (k0_pay13 v3)) (k0_pay78 (k0_pay14 v3)) (k0_pay79 (k0_pay15 v3)) (k0_pay80 (k0_pay16 v3)) (k0_pay81 (k0_pay17 v3)) (k0_pay82 (k0_pay18 v3)) (k0_pay83 (k0_pay19 v3)) (k0_pay84 (k0_pay20 v3)) (k0_pay85 (k0_pay21 v3)) (k0_pay86 (k0_pay22 v3)) (k0_pay87 (k0_pay23 v3)) (k0_pay88 (k0_pay24 v3)) (k0_pay89 (k0_pay25 v3)) (k0_pay90 (k0_pay26 v3)) (k0_pay91 (k0_pay27 v3)) (k0_pay92 (k0_pay28 v3)) (k0_pay93 (k0_pay29 v3)) (k0_pay94 (k0_pay30 v3)) (k0_pay95 (k0_pay31 v3)) (k0_pay96 (k0_pay32 v3)) (k0_pay97 (k0_pay33 v3)) (k0_pay98 (k0_pay34 v3)) (k0_pay99 (k0_pay35 v3)) (k0_pay100 (k0_pay36 v3)) (k0_pay101 (k0_pay37 v3)) (k0_pay102 (k0_pay38 v3)) (k0_pay103 (k0_pay39 v3)) (k0_pay104 (k0_pay40 v3)) (k0_pay105 (k0_pay41 v3)) (k0_pay106 (k0_pay42 v3)) (k0_pay107 (k0_pay43 v3)) (k0_pay108 (k0_pay44 v3)) (k0_pay109 (k0_pay45 v3)) (k0_pay110 (k0_pay46 v3)) (k0_pay111 (k0_pay47 v3)) (k0_pay112 (k0_pay48 v3)) (k0_pay113 (k0_pay49 v3)) (k0_pay114 (k0_pay50 v3))

/-- The windows' means, as a column. -/
abbrev meanOf (v3 : Vec F S16x2176 .f32) : FVec F S16x2048x1 .f32 :=
  k0_pay117 (k0_pay51 v3) (k0_pay52 v3) (k0_pay53 v3) (k0_pay54 v3) (k0_pay55 (k0_pay2 v3)) (k0_pay56 (k0_pay2 v3)) (k0_pay57 (k0_pay2 v3)) (k0_pay58 (k0_pay2 v3)) (k0_pay59 (k0_pay2 v3)) (k0_pay60 (k0_pay2 v3)) (k0_pay61 (k0_pay2 v3)) (k0_pay62 (k0_pay2 v3)) (k0_pay63 (k0_pay2 v3)) (k0_pay64 (k0_pay2 v3)) (k0_pay65 (k0_pay2 v3)) (k0_pay66 (k0_pay2 v3)) (k0_pay67 (k0_pay3 v3)) (k0_pay68 (k0_pay4 v3)) (k0_pay69 (k0_pay5 v3)) (k0_pay70 (k0_pay6 v3)) (k0_pay71 (k0_pay7 v3)) (k0_pay72 (k0_pay8 v3)) (k0_pay73 (k0_pay9 v3)) (k0_pay74 (k0_pay10 v3)) (k0_pay75 (k0_pay11 v3)) (k0_pay76 (k0_pay12 v3)) (k0_pay77 (k0_pay13 v3)) (k0_pay78 (k0_pay14 v3)) (k0_pay79 (k0_pay15 v3)) (k0_pay80 (k0_pay16 v3)) (k0_pay81 (k0_pay17 v3)) (k0_pay82 (k0_pay18 v3)) (k0_pay83 (k0_pay19 v3)) (k0_pay84 (k0_pay20 v3)) (k0_pay85 (k0_pay21 v3)) (k0_pay86 (k0_pay22 v3)) (k0_pay87 (k0_pay23 v3)) (k0_pay88 (k0_pay24 v3)) (k0_pay89 (k0_pay25 v3)) (k0_pay90 (k0_pay26 v3)) (k0_pay91 (k0_pay27 v3)) (k0_pay92 (k0_pay28 v3)) (k0_pay93 (k0_pay29 v3)) (k0_pay94 (k0_pay30 v3)) (k0_pay95 (k0_pay31 v3)) (k0_pay96 (k0_pay32 v3)) (k0_pay97 (k0_pay33 v3)) (k0_pay98 (k0_pay34 v3)) (k0_pay99 (k0_pay35 v3)) (k0_pay100 (k0_pay36 v3)) (k0_pay101 (k0_pay37 v3)) (k0_pay102 (k0_pay38 v3)) (k0_pay103 (k0_pay39 v3)) (k0_pay104 (k0_pay40 v3)) (k0_pay105 (k0_pay41 v3)) (k0_pay106 (k0_pay42 v3)) (k0_pay107 (k0_pay43 v3)) (k0_pay108 (k0_pay44 v3)) (k0_pay109 (k0_pay45 v3)) (k0_pay110 (k0_pay46 v3)) (k0_pay111 (k0_pay47 v3)) (k0_pay112 (k0_pay48 v3)) (k0_pay113 (k0_pay49 v3)) (k0_pay114 (k0_pay50 v3))

/-- The reciprocals `1 / (σ + ε)`, as a column. -/
abbrev invOf (v3 : Vec F S16x2176 .f32) : FVec F S16x2048x1 .f32 :=
  k0_pay118 (k0_pay51 v3) (k0_pay52 v3) (k0_pay53 v3) (k0_pay54 v3) (k0_pay55 (k0_pay2 v3)) (k0_pay56 (k0_pay2 v3)) (k0_pay57 (k0_pay2 v3)) (k0_pay58 (k0_pay2 v3)) (k0_pay59 (k0_pay2 v3)) (k0_pay60 (k0_pay2 v3)) (k0_pay61 (k0_pay2 v3)) (k0_pay62 (k0_pay2 v3)) (k0_pay63 (k0_pay2 v3)) (k0_pay64 (k0_pay2 v3)) (k0_pay65 (k0_pay2 v3)) (k0_pay66 (k0_pay2 v3)) (k0_pay67 (k0_pay3 v3)) (k0_pay68 (k0_pay4 v3)) (k0_pay69 (k0_pay5 v3)) (k0_pay70 (k0_pay6 v3)) (k0_pay71 (k0_pay7 v3)) (k0_pay72 (k0_pay8 v3)) (k0_pay73 (k0_pay9 v3)) (k0_pay74 (k0_pay10 v3)) (k0_pay75 (k0_pay11 v3)) (k0_pay76 (k0_pay12 v3)) (k0_pay77 (k0_pay13 v3)) (k0_pay78 (k0_pay14 v3)) (k0_pay79 (k0_pay15 v3)) (k0_pay80 (k0_pay16 v3)) (k0_pay81 (k0_pay17 v3)) (k0_pay82 (k0_pay18 v3)) (k0_pay83 (k0_pay19 v3)) (k0_pay84 (k0_pay20 v3)) (k0_pay85 (k0_pay21 v3)) (k0_pay86 (k0_pay22 v3)) (k0_pay87 (k0_pay23 v3)) (k0_pay88 (k0_pay24 v3)) (k0_pay89 (k0_pay25 v3)) (k0_pay90 (k0_pay26 v3)) (k0_pay91 (k0_pay27 v3)) (k0_pay92 (k0_pay28 v3)) (k0_pay93 (k0_pay29 v3)) (k0_pay94 (k0_pay30 v3)) (k0_pay95 (k0_pay31 v3)) (k0_pay96 (k0_pay32 v3)) (k0_pay97 (k0_pay33 v3)) (k0_pay98 (k0_pay34 v3)) (k0_pay99 (k0_pay35 v3)) (k0_pay100 (k0_pay36 v3)) (k0_pay101 (k0_pay37 v3)) (k0_pay102 (k0_pay38 v3)) (k0_pay103 (k0_pay39 v3)) (k0_pay104 (k0_pay40 v3)) (k0_pay105 (k0_pay41 v3)) (k0_pay106 (k0_pay42 v3)) (k0_pay107 (k0_pay43 v3)) (k0_pay108 (k0_pay44 v3)) (k0_pay109 (k0_pay45 v3)) (k0_pay110 (k0_pay46 v3)) (k0_pay111 (k0_pay47 v3)) (k0_pay112 (k0_pay48 v3)) (k0_pay113 (k0_pay49 v3)) (k0_pay114 (k0_pay50 v3))

/-- The windows against the transposed weights `v154`. -/
abbrev prodOf (v3 : Vec F S16x2176 .f32) (v154 : Vec F S64x64 .bf16) : FVec F S16x2048x64 .f32 :=
  k0_pay119 (k0_pay51 v3) (k0_pay52 v3) (k0_pay53 v3) (k0_pay54 v3) (k0_pay55 (k0_pay2 v3)) (k0_pay56 (k0_pay2 v3)) (k0_pay57 (k0_pay2 v3)) (k0_pay58 (k0_pay2 v3)) (k0_pay59 (k0_pay2 v3)) (k0_pay60 (k0_pay2 v3)) (k0_pay61 (k0_pay2 v3)) (k0_pay62 (k0_pay2 v3)) (k0_pay63 (k0_pay2 v3)) (k0_pay64 (k0_pay2 v3)) (k0_pay65 (k0_pay2 v3)) (k0_pay66 (k0_pay2 v3)) (k0_pay67 (k0_pay3 v3)) (k0_pay68 (k0_pay4 v3)) (k0_pay69 (k0_pay5 v3)) (k0_pay70 (k0_pay6 v3)) (k0_pay71 (k0_pay7 v3)) (k0_pay72 (k0_pay8 v3)) (k0_pay73 (k0_pay9 v3)) (k0_pay74 (k0_pay10 v3)) (k0_pay75 (k0_pay11 v3)) (k0_pay76 (k0_pay12 v3)) (k0_pay77 (k0_pay13 v3)) (k0_pay78 (k0_pay14 v3)) (k0_pay79 (k0_pay15 v3)) (k0_pay80 (k0_pay16 v3)) (k0_pay81 (k0_pay17 v3)) (k0_pay82 (k0_pay18 v3)) (k0_pay83 (k0_pay19 v3)) (k0_pay84 (k0_pay20 v3)) (k0_pay85 (k0_pay21 v3)) (k0_pay86 (k0_pay22 v3)) (k0_pay87 (k0_pay23 v3)) (k0_pay88 (k0_pay24 v3)) (k0_pay89 (k0_pay25 v3)) (k0_pay90 (k0_pay26 v3)) (k0_pay91 (k0_pay27 v3)) (k0_pay92 (k0_pay28 v3)) (k0_pay93 (k0_pay29 v3)) (k0_pay94 (k0_pay30 v3)) (k0_pay95 (k0_pay31 v3)) (k0_pay96 (k0_pay32 v3)) (k0_pay97 (k0_pay33 v3)) (k0_pay98 (k0_pay34 v3)) (k0_pay99 (k0_pay35 v3)) (k0_pay100 (k0_pay36 v3)) (k0_pay101 (k0_pay37 v3)) (k0_pay102 (k0_pay38 v3)) (k0_pay103 (k0_pay39 v3)) (k0_pay104 (k0_pay40 v3)) (k0_pay105 (k0_pay41 v3)) (k0_pay106 (k0_pay42 v3)) (k0_pay107 (k0_pay43 v3)) (k0_pay108 (k0_pay44 v3)) (k0_pay109 (k0_pay45 v3)) (k0_pay110 (k0_pay46 v3)) (k0_pay111 (k0_pay47 v3)) (k0_pay112 (k0_pay48 v3)) (k0_pay113 (k0_pay49 v3)) (k0_pay114 (k0_pay50 v3)) v154

end Cert.KernelIdeal.KBlock

end
-- ==== Proof.KStack.lean ====
/-
  The stacked windows at an index.  The body cuts 64 slices of width 2048 out of the loaded
  slice, the `h`-th starting at column `h`, gives each a middle axis of length one and
  concatenates them along it: entry `(b, h, t)` of the stack is the loaded slice at `(b, t + h)`.

  The 64 pieces are one family indexed by the starting column `h : Fin 64`, so the stack is the
  concatenation of that family listed in order.  Every piece has extent one along the middle axis,
  hence entry `(b, h, t)` of the concatenation is piece `h` at `(b, 0, t)`; the piece is a reshape
  that keeps the row-major position, so that is the `h`-th slice at `(b, t)`; a slice adds its
  offsets, so that is the sliced array at `(b, t + h)`; and the sliced array is the loaded slice
  under the identity reshape.
-/
import proofs.«415342_j17059610100042_3_alg».proof.Proof.KArgs
import Idealize.ShloMosaic.PureOps.Ideal
import Idealize.ShloMosaic.Lib.ValueIdx
import Idealize.ShloMosaic.Lib.Pipeline.Value

set_option maxRecDepth 16384

noncomputable section

namespace Cert.KernelIdeal.KBlock

open Idealize.ShloMosaic Idealize.ShloMosaic.ValueIdx Cert.KernelIdeal Cert.KernelIdeal.Gen

/-- A slice of width 2048 that starts at a column below 64 lies inside the 2176 columns
    (`h + 2048 ≤ 63 + 2048 < 2176`), and takes all 16 rows. -/
theorem stkSlices (h : Fin 64) : S16x2176.Slices ![0, h.val] S16x2048 :=
  ⟨rfl, fun a => by
    match a with
    | ⟨0, _⟩ => show 0 + 16 ≤ 16; omega
    | ⟨1, _⟩ => show h.val + 2048 ≤ 2176; have := h.isLt; omega⟩

/-- The `h`-th piece of the stack, as a function of the starting column: the slice of `w` of width
    2048 starting at column `h`, given a middle axis of length one. -/
def stkPiece (w : FVec Ideal S16x2176 .f32) (h : Fin 64) : S16x1x2048.Idx → Ideal .f32 :=
  shapeCast S16x1x2048 (extractStridedSlice S16x2048 ![0, h.val] w (stkSlices h)) shapeCasts_S16x2048_S16x1x2048

/-- The `h`-th piece at `(b, z, t)` is the sliced array at `(b, t + h)`.  The reshape keeps the
    row-major position: `(b · 1 + z) · 2048 + t = b · 2048 + t` because the middle coordinate `z` is
    `0`; the slice then adds its offsets `(0, h)`. -/
theorem stkPiece_apply (w : FVec Ideal S16x2176 .f32) (h : Fin 64) (b : Fin 16) (z : Fin 1) (t : Fin 2048) :
    stkPiece w h (ix3 b z t) = w (ix2 b ⟨t.val + h.val, by have := t.isLt; have := h.isLt; omega⟩) := by
  unfold stkPiece
  refine (shapeCast_apply _ _ (ix3 b z t) (ix2 b t) ?_).trans ?_
  · rw [Shape.rowMajor_val_two, Shape.rowMajor_val_three]
    show b.val * 2048 + t.val = (b.val * 1 + z.val) * 2048 + t.val
    have := z.isLt; omega
  · refine extractStridedSlice_apply _ _ _ (ix2 b t) (ix2 b ⟨t.val + h.val, _⟩) ?_
    intro a
    match a with
    | ⟨0, _⟩ => show b.val = 0 + b.val; omega
    | ⟨1, _⟩ => show t.val + h.val = h.val + t.val; omega

/-- Sixty-four pieces of shape [16, 1, 2048] laid along the middle axis make [16, 64, 2048]: the
    shapes of the pieces do not depend on the pieces' values, and `64 · 1 = 64`. -/
theorem stk_concatenates (f : Fin 64 → (S16x1x2048.Idx → Ideal .f32)) :
    Shape.Concatenates ((List.ofFn fun n : Fin 64 => (⟨S16x1x2048, f n⟩ : (s : Shape) × (s.Idx → Ideal .f32))).map (·.1))
      S16x64x2048 1 := by
  show Shape.Concatenates (List.ofFn fun _ : Fin 64 => S16x1x2048) S16x64x2048 1
  decide

/-- The stack is the concatenation of the 64 pieces listed by their starting column: the body's
    `h`-th operand is, by its definition, the piece `stkPiece (k0_pay2 v3) h` — each of the 64
    slices is cut out of the same identity reshape `k0_pay2 v3` of the loaded slice. -/
theorem stk_eq_concatenate (v3 : Vec Ideal S16x2176 .f32) :
    stk (F := Ideal) v3 = concatenate S16x64x2048 1
      (List.ofFn fun n : Fin 64 => (⟨S16x1x2048, stkPiece (k0_pay2 v3) n⟩ : (s : Shape) × (s.Idx → Ideal .f32)))
      (stk_concatenates _) := rfl

theorem stk_apply (v3 : Vec Ideal S16x2176 .f32) (b : Fin 16) (h : Fin 64) (t : Fin 2048) :
    stk (F := Ideal) v3 (ix3 b h t) = v3 (ix2 b ⟨t.val + h.val, by have := t.isLt; have := h.isLt; omega⟩) := by
  rw [stk_eq_concatenate]
  -- unit-thick pieces: the middle coordinate `h` names the piece, read at `(b, 0, t)`
  refine (concatenate_ofFn_unit_apply (t := S16x64x2048) (s₁ := S16x1x2048) (1 : Fin 3) (stkPiece (k0_pay2 v3))
    (stk_concatenates _) rfl rfl (ix3 b h t) h rfl (ix3 b (0 : Fin 1) t) ?_).trans ?_
  · intro a ha
    match a, ha with
    | ⟨0, _⟩, _ => rfl
    | ⟨1, _⟩, ha => exact absurd rfl ha
    | ⟨2, _⟩, _ => rfl
  · -- the piece is the sliced array at `(b, t + h)`; the identity reshape keeps every position
    refine (stkPiece_apply (k0_pay2 v3) h b 0 t).trans ?_
    unfold k0_pay2
    exact shapeCast_apply _ _ _ _ rfl

end Cert.KernelIdeal.KBlock

end
-- ==== Proof.KStage.lean ====
/-
  The body's arithmetic over an abstract stack of windows, read at an index on the extended reals.

  With `S (b, e, r)` sample `e` of window `r` of row `b`: the mean of a window is the sum over `e`
  times `1/64`; the reciprocal is `1 / (√(Σ_e (S − mean)² · (1/63)) + ε)`; the product with the
  transposed weights is `Σ_e S (b, e, r) · W (e, k)` (the transpose, the narrowing format change and the
  two reshapes around the matrix product move no value); the stored entry at row `b`, column
  `r · 64 + k` is `max (reciprocal · (product − mean · weight sum) + bias) 0`.  The body's means, reciprocals and
  products are these functions of its stacked windows (last section).
-/
import proofs.«415342_j17059610100042_3_alg».proof.Proof.KArgs
import proofs.«415342_j17059610100042_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KBlock

open Idealize.ShloMosaic Idealize.ShloMosaic.ValueIdx Cert.KernelIdeal Cert.KernelIdeal.Gen

/-! ## Layout operations of the body's shapes, read at an index by coordinates -/

section Layout
variable {α : Type}

/-- A `[16, 2048]` array given a trailing unit axis reads, at `(b, r, u)`, the operand at `(b, r)`. -/
theorem cast_col_apply (x : S16x2048.Idx → α) (h : S16x2048.ShapeCasts S16x2048x1) (b : Fin 16) (r : Fin 2048) (u : Fin 1) :
    shapeCast S16x2048x1 x h (ix3 b r u) = x (ix2 b r) :=
  shapeCast_apply x h _ _ (by
    have hu : u.val = 0 := by omega
    rw [Shape.rowMajor_val_two, Shape.rowMajor_val_three]
    show b.val * 2048 + r.val = (b.val * 2048 + r.val) * 1 + u.val
    omega)

/-- A `[16, 2048]` array given a middle unit axis reads, at `(b, u, r)`, the operand at `(b, r)`. -/
theorem cast_mid_apply (x : S16x2048.Idx → α) (h : S16x2048.ShapeCasts S16x1x2048) (b : Fin 16) (u : Fin 1) (r : Fin 2048) :
    shapeCast S16x1x2048 x h (ix3 b u r) = x (ix2 b r) :=
  shapeCast_apply x h _ _ (by
    have hu : u.val = 0 := by omega
    rw [Shape.rowMajor_val_two, Shape.rowMajor_val_three]
    show b.val * 2048 + r.val = (b.val * 1 + u.val) * 2048 + r.val
    omega)

/-- The middle unit axis broadcast over 64 reads, at `(b, h, r)`, the operand at `(b, 0, r)`. -/
theorem bcast_mid_apply (x : S16x1x2048.Idx → α) (h : S16x1x2048.Broadcasts S16x64x2048) (b : Fin 16) (e : Fin 64) (r : Fin 2048) :
    broadcastTo S16x64x2048 x h (ix3 b e r) = x (ix3 b (0 : Fin 1) r) :=
  broadcastTo_apply x h (ix3 b e r) (ix3 b (0 : Fin 1) r) fun ax => by
    match ax with
    | ⟨0, _⟩ => rfl
    | ⟨1, _⟩ => rfl
    | ⟨2, _⟩ => rfl

/-- The trailing unit axis broadcast over 64 reads, at `(b, r, k)`, the operand at `(b, r, 0)`. -/
theorem bcast_col_apply (x : S16x2048x1.Idx → α) (h : S16x2048x1.Broadcasts S16x2048x64) (b : Fin 16) (r : Fin 2048) (k : Fin 64) :
    broadcastTo S16x2048x64 x h (ix3 b r k) = x (ix3 b r (0 : Fin 1)) :=
  broadcastTo_apply x h (ix3 b r k) (ix3 b r (0 : Fin 1)) fun ax => by
    match ax with
    | ⟨0, _⟩ => rfl
    | ⟨1, _⟩ => rfl
    | ⟨2, _⟩ => rfl

/-- One row of 64 broadcast over the block reads, at `(b, r, k)`, the row at `(0, 0, k)`. -/
theorem bcast_row_apply (x : S1x1x64.Idx → α) (h : S1x1x64.Broadcasts S16x2048x64) (b : Fin 16) (r : Fin 2048) (k : Fin 64) :
    broadcastTo S16x2048x64 x h (ix3 b r k) = x (ix3 (0 : Fin 1) (0 : Fin 1) k) :=
  broadcastTo_apply x h (ix3 b r k) (ix3 (0 : Fin 1) (0 : Fin 1) k) fun ax => by
    match ax with
    | ⟨0, _⟩ => rfl
    | ⟨1, _⟩ => rfl
    | ⟨2, _⟩ => rfl

/-- The block's rows flattened: `[16, 2048, 64]` as `[32768, 64]` reads, at `(b · 2048 + r, e)`, the operand at `(b, r, e)`. -/
theorem cast_rows_apply (x : S16x2048x64.Idx → α) (h : S16x2048x64.ShapeCasts S32768x64) (b : Fin 16) (r : Fin 2048) (e : Fin 64)
    (q : Fin 32768) (hq : q.val = b.val * 2048 + r.val) :
    shapeCast S32768x64 x h (ix2 q e) = x (ix3 b r e) :=
  shapeCast_apply x h _ _ (by
    rw [Shape.rowMajor_val_two, Shape.rowMajor_val_three]
    show (b.val * 2048 + r.val) * 64 + e.val = q.val * 64 + e.val
    rw [hq])

/-- … and back: `[32768, 64]` as `[16, 2048, 64]` reads, at `(b, r, k)`, the operand at `(b · 2048 + r, k)`. -/
theorem cast_unrows_apply (x : S32768x64.Idx → α) (h : S32768x64.ShapeCasts S16x2048x64) (b : Fin 16) (r : Fin 2048) (k : Fin 64)
    (q : Fin 32768) (hq : q.val = b.val * 2048 + r.val) :
    shapeCast S16x2048x64 x h (ix3 b r k) = x (ix2 q k) :=
  shapeCast_apply x h _ _ (by
    rw [Shape.rowMajor_val_two, Shape.rowMajor_val_three]
    show q.val * 64 + k.val = (b.val * 2048 + r.val) * 64 + k.val
    rw [hq])

/-- The block's last two axes flattened: `[16, 2048, 64]` as `[16, 131072]` reads, at `(b, r · 64 + k)`, the operand at `(b, r, k)`. -/
theorem cast_flat_apply (x : S16x2048x64.Idx → α) (h : S16x2048x64.ShapeCasts S16x131072) (b : Fin 16) (r : Fin 2048) (k : Fin 64)
    (q : Fin 131072) (hq : q.val = r.val * 64 + k.val) :
    shapeCast S16x131072 x h (ix2 b q) = x (ix3 b r k) :=
  shapeCast_apply x h _ _ (by
    rw [Shape.rowMajor_val_two, Shape.rowMajor_val_three]
    show (b.val * 2048 + r.val) * 64 + k.val = b.val * 131072 + q.val
    rw [hq]; omega)

/-- A row `[1, 64]` given a second unit axis reads, at `(0, 0, k)`, the row at `(0, k)`. -/
theorem cast_row_apply (x : S1x64.Idx → α) (h : S1x64.ShapeCasts S1x1x64) (u v : Fin 1) (k : Fin 64) :
    shapeCast S1x1x64 x h (ix3 u v k) = x (ix2 v k) :=
  shapeCast_ab_1ab_apply x h u v k

end Layout

/-! ## The lane sum over the middle axis -/

/-- The index the sum over the middle axis inserts its coordinate at. -/
theorem lift_mid (b : Fin 16) (r : Fin 2048) (e : Fin 64) :
    reduces_S16x64x2048_S16x2048.lift (ix2 b r) e = ix3 b e r := by
  funext c
  match c with
  | ⟨0, _⟩ => exact Fin.ext rfl
  | ⟨1, _⟩ => exact Fin.ext rfl
  | ⟨2, _⟩ => exact Fin.ext rfl

/-- The sum over the middle axis of a `[16, 64, 2048]` array, at `(b, r)`, is the sum over `e` of its entries `(b, e, r)`. -/
theorem laneSum_apply (S : FVec Ideal S16x64x2048 .f32) (b : Fin 16) (r : Fin 2048) :
    multiReduction (F := Ideal) .add [1] S16x2048 S 0x00000000#32 reduces_S16x64x2048_S16x2048 (.inl rfl) rfl (ix2 b r)
      = ∑ e : Fin 64, S (ix3 b e r) := by
  refine (Ideal.multiReduction_add_single S 0x00000000#32 reduces_S16x64x2048_S16x2048 (.inl rfl) rfl (ix2 b r)).trans ?_
  exact Finset.sum_congr rfl fun e _ => congrArg S (lift_mid b r e)

/-! ## The body's stages as functions of the stacked windows -/

section Stages
variable {F : FTy → Type} [FloatOps F] [Named F]

/-- The windows' means as a `[16, 2048]` array: the sum over the window axis times the word of `1/64`. -/
def meanRowOf (S : FVec F S16x64x2048 .f32) : FVec F S16x2048 .f32 :=
  have v134 : FVec F S16x2048 .f32 := multiReduction .add [1] S16x2048 S 0x00000000#32 reduces_S16x64x2048_S16x2048 (.inl rfl) rfl
  have cst_0 : F .f32 := Scalar.ofBits .f32 0x3C800000#32
  have v135 : FVec F S16x2048 .f32 := broadcast S16x2048 cst_0
  have v136 : FVec F S16x2048 .f32 := mulf v134 v135
  v136

/-- The means as a column. -/
def meanColOf (S : FVec F S16x64x2048 .f32) : FVec F S16x2048x1 .f32 :=
  shapeCast S16x2048x1 (meanRowOf S) shapeCasts_S16x2048_S16x2048x1

/-- The reciprocals of the deviations plus `ε`, as a column. -/
def invColOf (S : FVec F S16x64x2048 .f32) : FVec F S16x2048x1 .f32 :=
  have v137 : FVec F S16x1x2048 .f32 := shapeCast S16x1x2048 (meanRowOf S) shapeCasts_S16x2048_S16x1x2048
  have v138 : FVec F S16x64x2048 .f32 := broadcastTo S16x64x2048 v137 broadcasts_S16x1x2048_S16x64x2048
  have v139 : FVec F S16x64x2048 .f32 := subf S v138
  have v140 : FVec F S16x64x2048 .f32 := mulf v139 v139
  have v141 : FVec F S16x2048 .f32 := multiReduction .add [1] S16x2048 v140 0x00000000#32 reduces_S16x64x2048_S16x2048 (.inl rfl) rfl
  have cst_2 : F .f32 := Named.named κ "inv_63" 0x3C820821#32
  have v142 : FVec F S16x2048 .f32 := broadcast S16x2048 cst_2
  have v143 : FVec F S16x2048 .f32 := mulf v141 v142
  have v144 : FVec F S16x2048 .f32 := sqrt v143
  have cst_3 : F .f32 := Scalar.ofBits .f32 0x358637BD#32
  have v145 : FVec F S16x2048 .f32 := broadcast S16x2048 cst_3
  have v146 : FVec F S16x2048 .f32 := addf v144 v145
  have cst_4 : F .f32 := Scalar.ofBits .f32 0x3F800000#32
  have v147 : FVec F S16x2048 .f32 := broadcast S16x2048 cst_4
  have v148 : FVec F S16x2048 .f32 := divf v147 v146
  have v150 : FVec F S16x2048x1 .f32 := shapeCast S16x2048x1 v148 shapeCasts_S16x2048_S16x2048x1
  v150

/-- The windows against the transposed weights. -/
def prodOfStack (S : FVec F S16x64x2048 .f32) (v154 : Vec F S64x64 .bf16) : FVec F S16x2048x64 .f32 :=
  have v151 : FVec F S16x2048x64 .f32 := transpose S16x2048x64 [0, 2, 1] S transposes_S16x64x2048_p0_2_1_S16x2048x64
  have v152 : FVec F S16x2048x64 .bf16 := truncf .bf16 v151 bitsLt_bf16_f32
  have v153 : FVec F S32768x64 .bf16 := shapeCast S32768x64 v152 shapeCasts_S16x2048x64_S32768x64
  have v155 : FVec F S64x64 .bf16 := shapeCast S64x64 v154 shapeCasts_S64x64_S64x64
  have cst_7 : FVec F S32768x64 .f32 := constant S32768x64 .f32 0x00000000#32
  have v156 : FVec F S32768x64 .f32 := matmul dot_S32768x64_S64x64_S32768x64_1_0_0_1_n_n none v153 v155 cst_7
  have v157 : FVec F S16x2048x64 .f32 := shapeCast S16x2048x64 v156 shapeCasts_S32768x64_S16x2048x64
  v157

end Stages

/-! ## The stages read at an index, on the extended reals -/

/-- The named reciprocal denotes `1/63`. -/
theorem inv63 : Named.named (F := Ideal) κ "inv_63" (φ := .f32) 0x3C820821#32 = ((1 / 63 : ℝ) : EReal) :=
  IdealRules.named_const.ideal_named_scalar _ _ _ _ rfl

theorem sqrt_apply {s : Shape} {φ : FTy} (a : FVec Ideal s φ) (j : s.Idx) : sqrt a j = Ideal.sqrt (a j) := rfl

/-- The mean of window `(b, r)`. -/
theorem meanRowOf_apply (S : FVec Ideal S16x64x2048 .f32) (b : Fin 16) (r : Fin 2048) :
    meanRowOf (F := Ideal) S (ix2 b r) = (∑ e : Fin 64, S (ix3 b e r)) * ((1 / 64 : ℝ) : EReal) := by
  unfold meanRowOf
  refine (mulf_apply _ _ _).trans ?_
  rw [laneSum_apply]
  exact congrArg _ Hankel.ofBits_inv64

theorem meanColOf_apply (S : FVec Ideal S16x64x2048 .f32) (b : Fin 16) (r : Fin 2048) (u : Fin 1) :
    meanColOf (F := Ideal) S (ix3 b r u) = (∑ e : Fin 64, S (ix3 b e r)) * ((1 / 64 : ℝ) : EReal) := by
  unfold meanColOf
  exact (cast_col_apply _ _ b r u).trans (meanRowOf_apply S b r)

/-- The reciprocal of window `(b, r)`'s deviation plus `ε`. -/
theorem invColOf_apply (S : FVec Ideal S16x64x2048 .f32) (b : Fin 16) (r : Fin 2048) (u : Fin 1) :
    invColOf (F := Ideal) S (ix3 b r u)
      = Ideal.div 1 (Ideal.sqrt ((∑ e : Fin 64, (S (ix3 b e r) - meanRowOf (F := Ideal) S (ix2 b r)) * (S (ix3 b e r) - meanRowOf (F := Ideal) S (ix2 b r)))
          * ((1 / 63 : ℝ) : EReal)) + Hankel.cEps) := by
  unfold invColOf
  refine (cast_col_apply _ _ b r u).trans ?_
  simp only [divf_apply, addf_apply, sqrt_apply, mulf_apply, broadcast_apply]
  rw [laneSum_apply, inv63]
  simp only [mulf_apply, subf_apply, bcast_mid_apply, cast_mid_apply, Ideal.ofBits_def, Hankel.ofBits_one]

/-! ## The product with the weights, read at an index -/

/-- The operand indices of the product `[32768, 64] · [64, 64]`, axis by axis: the left operand reads the result's row and the
    contraction's coordinate, the right operand the contraction's coordinate and the result's column. -/
theorem dot_lhs_0 (j : S32768x64.Idx) (q : dot_S32768x64_S64x64_S32768x64_1_0_0_1_n_n.contr.Idx) :
    (dot_S32768x64_S64x64_S32768x64_1_0_0_1_n_n.lhsIdx j q 0 : ℕ) = j 0 := by
  simp [DotDims.lhsIdx, dot_S32768x64_S64x64_S32768x64_1_0_0_1_n_n]; rfl
theorem dot_lhs_1 (j : S32768x64.Idx) (q : dot_S32768x64_S64x64_S32768x64_1_0_0_1_n_n.contr.Idx) :
    (dot_S32768x64_S64x64_S32768x64_1_0_0_1_n_n.lhsIdx j q 1 : ℕ) = q ⟨0, by decide⟩ :=
  DotDims.lhsIdx_val_of_single _ rfl j q
theorem dot_rhs_0 (j : S32768x64.Idx) (q : dot_S32768x64_S64x64_S32768x64_1_0_0_1_n_n.contr.Idx) :
    (dot_S32768x64_S64x64_S32768x64_1_0_0_1_n_n.rhsIdx j q 0 : ℕ) = q ⟨0, by decide⟩ :=
  DotDims.rhsIdx_val_of_single _ rfl j q
theorem dot_rhs_1 (j : S32768x64.Idx) (q : dot_S32768x64_S64x64_S32768x64_1_0_0_1_n_n.contr.Idx) :
    (dot_S32768x64_S64x64_S32768x64_1_0_0_1_n_n.rhsIdx j q 1 : ℕ) = j 1 := by
  simp [DotDims.rhsIdx, dot_S32768x64_S64x64_S32768x64_1_0_0_1_n_n]; rfl

/-- The product into the zero accumulator, at `(q, k)`, is the sum over the contracted coordinate of the operands' products. -/
theorem dot_apply (A : FVec Ideal S32768x64 .bf16) (B : FVec Ideal S64x64 .bf16) (q : Fin 32768) (k : Fin 64) :
    matmul (F := Ideal) dot_S32768x64_S64x64_S32768x64_1_0_0_1_n_n none A B (constant (F := Ideal) S32768x64 .f32 0x00000000#32) (ix2 q k)
      = ∑ e : Fin 64, A (ix2 q e) * B (ix2 e k) := by
  refine (Ideal.matmul_constant_zero_apply dot_S32768x64_S64x64_S32768x64_1_0_0_1_n_n none A B (ix2 q k)).trans ?_
  rw [← Equiv.sum_comp (contrEquiv1 dot_S32768x64_S64x64_S32768x64_1_0_0_1_n_n 64 rfl rfl).symm]
  refine Finset.sum_congr rfl fun e _ => ?_
  have hc := contrEquiv1_symm_val dot_S32768x64_S64x64_S32768x64_1_0_0_1_n_n 64 rfl rfl e
  have hl : dot_S32768x64_S64x64_S32768x64_1_0_0_1_n_n.lhsIdx (ix2 q k)
      ((contrEquiv1 dot_S32768x64_S64x64_S32768x64_1_0_0_1_n_n 64 rfl rfl).symm e) = ix2 q e := by
    funext ax; apply Fin.ext
    match ax with
    | ⟨0, _⟩ => exact dot_lhs_0 _ _
    | ⟨1, _⟩ => exact (dot_lhs_1 _ _).trans hc
  have hr : dot_S32768x64_S64x64_S32768x64_1_0_0_1_n_n.rhsIdx (ix2 q k)
      ((contrEquiv1 dot_S32768x64_S64x64_S32768x64_1_0_0_1_n_n 64 rfl rfl).symm e) = ix2 e k := by
    funext ax; apply Fin.ext
    match ax with
    | ⟨0, _⟩ => exact (dot_rhs_0 _ _).trans hc
    | ⟨1, _⟩ => exact dot_rhs_1 _ _
  rw [hl, hr]

/-- Window `(b, r)` against column `k` of the transposed weights. -/
theorem prodOfStack_apply (S : FVec Ideal S16x64x2048 .f32) (W : Vec Ideal S64x64 .bf16) (b : Fin 16) (r : Fin 2048) (k : Fin 64) :
    prodOfStack (F := Ideal) S W (ix3 b r k) = ∑ e : Fin 64, S (ix3 b e r) * W (ix2 e k) := by
  unfold prodOfStack
  refine (cast_unrows_apply _ _ b r k ⟨b.val * 2048 + r.val, by have := b.isLt; have := r.isLt; omega⟩ rfl).trans ?_
  refine (dot_apply _ _ _ k).trans ?_
  refine Finset.sum_congr rfl fun e _ => ?_
  rw [cast_rows_apply _ _ b r e _ rfl, shapeCast_self]
  exact congrArg (· * W (ix2 e k)) (transpose_ix3_021_apply S _ b r e)

/-! ## The rows and the last stage -/

/-- A `[1, 64]` row given its second unit axis reads, at `(0, 0, k)`, the row at `(0, k)`. -/
theorem rowW_apply (v : Vec Ideal S1x64 .f32) (k : Fin 64) :
    k0_pay120 (F := Ideal) v (ix3 (0 : Fin 1) (0 : Fin 1) k) = v (ix2 (0 : Fin 1) k) := by
  unfold k0_pay120
  refine (cast_row_apply _ _ 0 0 k).trans ?_
  rw [shapeCast_self]
theorem rowB_apply (v : Vec Ideal S1x64 .f32) (k : Fin 64) :
    k0_pay121 (F := Ideal) v (ix3 (0 : Fin 1) (0 : Fin 1) k) = v (ix2 (0 : Fin 1) k) := by
  unfold k0_pay121
  refine (cast_row_apply _ _ 0 0 k).trans ?_
  rw [shapeCast_self]

/-- The stored value at row `b`, column `r · 64 + k`: the reciprocal times (the product minus the mean times the weight sum),
    plus the bias, clamped at zero. -/
theorem store_apply (m v : FVec Ideal S16x2048x1 .f32) (p : FVec Ideal S16x2048x64 .f32) (ws bs : FVec Ideal S1x1x64 .f32)
    (b : Fin 16) (r : Fin 2048) (k : Fin 64) (q : Fin 131072) (hq : q.val = r.val * 64 + k.val) :
    k0_pay1 (F := Ideal) m v p ws bs (ix2 b q)
      = max (v (ix3 b r (0 : Fin 1)) * (p (ix3 b r k) - m (ix3 b r (0 : Fin 1)) * ws (ix3 (0 : Fin 1) (0 : Fin 1) k))
          + bs (ix3 (0 : Fin 1) (0 : Fin 1) k)) 0 := by
  unfold k0_pay1
  refine (cast_flat_apply _ _ b r k q hq).trans ?_
  simp only [maximumf_apply, addf_apply, mulf_apply, subf_apply, broadcast_apply, bcast_col_apply, bcast_row_apply,
    Ideal.ofBits_def, Ideal.ofBits_zero_f32]

/-! ## The body's means, reciprocals and products are these functions of its stacked windows -/

section Bridge
variable {F : FTy → Type} [FloatOps F] [Named F]

theorem meanOf_eq (v3 : Vec F S16x2176 .f32) : meanOf v3 = meanColOf (stk v3) := rfl
theorem invOf_eq (v3 : Vec F S16x2176 .f32) : invOf v3 = invColOf (stk v3) := rfl
theorem prodOf_eq (v3 : Vec F S16x2176 .f32) (v154 : Vec F S64x64 .bf16) : prodOf v3 v154 = prodOfStack (stk v3) v154 := rfl

end Bridge

end Cert.KernelIdeal.KBlock

end
-- ==== Proof.KBlock.lean ====
/-
  One block of the kernel's output, entry by entry: what the body leaves in the output's staging
  buffer at a grid point, read at row `b`, window `r` of the block and channel `k` (the flattened
  column `r · 64 + k`), is the formula `Hankel.blkVal` of the body's four inputs.
-/
import proofs.«415342_j17059610100042_3_alg».proof.Proof.Gen.KernelIdeal.Frame
import proofs.«415342_j17059610100042_3_alg».proof.Proof.Spec
import proofs.«415342_j17059610100042_3_alg».proof.Proof.KStack
import proofs.«415342_j17059610100042_3_alg».proof.Proof.KStage

set_option maxRecDepth 16384

noncomputable section

namespace Cert.KernelIdeal.KBlock

open Idealize.ShloMosaic Idealize.ShloMosaic.ValueIdx Cert.KernelIdeal Cert.KernelIdeal.Gen
open Idealize.ShloMosaic.Tactic

/-! ## The body's one stored piece -/

section Piece
variable {F : FTy → Type} [FloatOps F] [Named F]

/-- The slice of the padded signal the body loads at grid point `i`: 16 rows, 2176 columns from the point's first column. -/
abbrev sliceAt (i : grid0.Coords) (x0 : Vec F S16x65664 .f32) : Vec F S16x2176 .f32 :=
  View.ld (Val := Elt F) x0 (Rect.unit (k0_off1 i) S16x2176.size (k0_off1_inb i))

theorem zero_offsets : (![0, 0] : Fin 2 → Nat) = fun _ => 0 := by
  funext a
  match a with
  | ⟨0, _⟩ => rfl
  | ⟨1, _⟩ => rfl

/-- What the body leaves in the output's staging buffer is its last stage applied to the stages of the loaded slice,
    the weights and the two rows. -/
theorem out_eq (c : Dev nD) (i : grid0.Coords)
    (arg1 : Memref sig .tc .vmem S16x65664 .f32) (harg1 : arg1.IsWhole) (arg2 : Memref sig .tc .vmem S64x64 .bf16) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S16x131072 .f32) (harg5 : arg5.IsWhole)
    (x0 : Vec F S16x65664 .f32) (x1 : Vec F S64x64 .bf16) (x2 : Vec F S1x64 .f32) (x3 : Vec F S1x64 .f32) :
    out0_A_4 (F := F) c i arg1 harg1 arg2 harg2 arg3 harg3 arg4 harg4 arg5 harg5 x0 x1 x2 x3
      = k0_pay1 (meanOf (sliceAt i x0)) (invOf (sliceAt i x0)) (prodOf (sliceAt i x0) x1) (k0_pay120 x2) (k0_pay121 x3) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero (S := S16x131072) zero_offsets]
  simp only [View.readAt_eq_ld, harg1.read_unread, harg2.read_unread, harg3.read_unread, harg4.read_unread,
    View.ld_unit_zero (S := S64x64) zero_offsets, View.ld_unit_zero (S := S1x64) zero_offsets]
  rfl

end Piece

/-! ## The block at an index -/

/-- The first offset of the body's slice is zero. -/
theorem off_row (i : grid0.Coords) : k0_off1 i 0 = 0 := by
  rw [k0_off1_eq i]; rfl

/-- The loaded slice at `(b, q)` is the padded signal at `(b, start + q)`. -/
theorem sliceAt_apply (i : grid0.Coords) (x0 : Vec Ideal S16x65664 .f32) (start : Nat) (hst : k0_off1 i 1 = start)
    (hs : start + 2176 ≤ 65664) (b : Fin 16) (q : Fin 2176) :
    sliceAt (F := Ideal) i x0 (ix2 b q) = x0 (ix2 b ⟨start + q.val, by have := q.isLt; omega⟩) := by
  show x0 _ = x0 _
  refine congrArg x0 (funext fun a => Fin.ext ?_)
  match a with
  | ⟨0, _⟩ =>
    show k0_off1 i 0 + 1 * b.val = b.val
    rw [off_row i]; omega
  | ⟨1, _⟩ =>
    show k0_off1 i 1 + 1 * q.val = start + q.val
    rw [hst]; omega

/-- Sample `e` of window `r` of row `b` of the stacked windows of the loaded slice is the padded signal's. -/
theorem stk_slice (i : grid0.Coords) (x0 : Vec Ideal S16x65664 .f32) (start : Nat) (hst : k0_off1 i 1 = start)
    (hs : start + 2176 ≤ 65664) (b : Fin 16) (r : Fin 2048) (e : Fin 64) :
    stk (F := Ideal) (sliceAt (F := Ideal) i x0) (ix3 b e r) = Hankel.pwin x0 start hs b r e := by
  rw [stk_apply, sliceAt_apply i x0 start hst hs]
  unfold Hankel.pwin
  exact congrArg x0 (congrArg (ix2 b) (Fin.ext (by show start + (r.val + e.val) = start + r.val + e.val; omega)))

/-- THE BLOCK AT AN INDEX.  `start` is the column of the padded signal the body's slice begins at
    (`2048` times the grid coordinate). -/
theorem out_apply (c : Dev nD) (i : grid0.Coords)
    (arg1 : Memref sig .tc .vmem S16x65664 .f32) (harg1 : arg1.IsWhole) (arg2 : Memref sig .tc .vmem S64x64 .bf16) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S16x131072 .f32) (harg5 : arg5.IsWhole)
    (x0 : Vec Ideal S16x65664 .f32) (x1 : Vec Ideal S64x64 .bf16) (x2 : Vec Ideal S1x64 .f32) (x3 : Vec Ideal S1x64 .f32)
    (start : Nat) (hst : k0_off1 i 1 = start) (hs : start + 2176 ≤ 65664)
    (b : Fin 16) (r : Fin 2048) (k : Fin 64) :
    out0_A_4 (F := Ideal) c i arg1 harg1 arg2 harg2 arg3 harg3 arg4 harg4 arg5 harg5 x0 x1 x2 x3
        (ix2 b ⟨r.val * 64 + k.val, by have := r.isLt; have := k.isLt; omega⟩)
      = Hankel.blkVal x0 x1 x2 x3 start hs b r k := by
  refine (congrFun (out_eq (F := Ideal) c i arg1 harg1 arg2 harg2 arg3 harg3 arg4 harg4 arg5 harg5 x0 x1 x2 x3) _).trans ?_
  rw [meanOf_eq, invOf_eq, prodOf_eq]
  refine (store_apply _ _ _ _ _ b r k _ rfl).trans ?_
  rw [meanColOf_apply, invColOf_apply, prodOfStack_apply, rowW_apply, rowB_apply, meanRowOf_apply]
  simp only [stk_slice i x0 start hst hs b r]
  rfl

end Cert.KernelIdeal.KBlock

end
-- ==== Proof.KEntry.lean ====
/-
  What the region finds: the four arrays the host lines before the region compute from the three
  arguments (the signal padded on the right, the weights transposed, the row sums of the weights,
  the bias as a row), each read at an index in terms of the arguments.
-/
import proofs.«415342_j17059610100042_3_alg».proof.Proof.Gen.KernelIdeal.Frame
import proofs.«415342_j17059610100042_3_alg».proof.Proof.Spec
import Idealize.ShloMosaic.Lib.KernelVsHost
import Idealize.ShloMosaic.Lib.ValueLayout
import Idealize.ShloMosaic.Lib.IdealHost
import Idealize.ShloMosaic.Lib.Pipeline.Value

set_option maxRecDepth 16384

noncomputable section

namespace Cert.KernelIdeal.KEntry

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The argument arrays and the four arrays the region finds, each at its literal type -/

/-- The signal, the weights and the bias as launched. -/
abbrev xArr (c : Dev nD) : Hankel.SX.Idx → EReal := m ((c.tc : Thread nD τ).loc main_arg0)
abbrev wArr (c : Dev nD) : Hankel.SW.Idx → EReal := m ((c.tc : Thread nD τ).loc main_arg1)
abbrev bArr (c : Dev nD) : Hankel.SB.Idx → EReal := m ((c.tc : Thread nD τ).loc main_arg2)

/-- The padded signal, the transposed weights, the row of weight sums and the row of biases, as
    the region finds them. -/
abbrev xpArr (c : Dev nD) : Hankel.SXP.Idx → EReal := V m c main_v0
abbrev wtArr (c : Dev nD) : Hankel.SW.Idx → EReal := V m c main_v2
abbrev wsArr (c : Dev nD) : Hankel.SRow.Idx → EReal := V m c main_v4
abbrev bsArr (c : Dev nD) : Hankel.SRow.Idx → EReal := V m c main_v5

/-- The padded signal is the signal with 128 columns of one value appended. -/
theorem xpArr_eq (c : Dev nD) : xpArr m c
    = pad S16x65664 ![0, 0] ![0, 128] ![0, 0] (xArr m c) (sitofp (F := Ideal) .f32 (constantI S_ 32 0#32))
        pads_S16x65536_S16x65664_000_01280 h_S_ := by
  show (V m c main_v0 : S16x65664.Idx → EReal) = _
  dsimp only [Gen.V, Gen.V0]
  simp only [Gen.hostOps0, Gen.hostOps0_1, Gen.hostOps0_2, List.flatten_cons, List.flatten_nil, List.append_nil, List.cons_append, List.nil_append]
  after_results
  rfl

/-- The transposed weights: the transpose, narrowed (no change of value at the ideal numbers). -/
theorem wtArr_eq (c : Dev nD) : wtArr m c
    = truncf (F := Ideal) .bf16 (transpose S64x64 [1, 0] (wArr m c) transposes_S64x64_S64x64_1_0) bitsLt_bf16_f32 := by
  show (V m c main_v2 : S64x64.Idx → EReal) = _
  dsimp only [Gen.V, Gen.V0]
  simp only [Gen.hostOps0, Gen.hostOps0_1, Gen.hostOps0_2, List.flatten_cons, List.flatten_nil, List.append_nil, List.cons_append, List.nil_append]
  after_results

/-- The row of weight sums: the sum over the second axis, as one row. -/
theorem wsArr_eq (c : Dev nD) : wsArr m c
    = shapeCast S1x64 (Host.reduceAdd (F := Ideal) (wArr m c) (constant (F := Ideal) S_ .f32 0x00000000#32) reducesTo_S64x64_S64_d1 h_S_)
        shapeCasts_S64_S1x64 := by
  show (V m c main_v4 : S1x64.Idx → EReal) = _
  dsimp only [Gen.V, Gen.V0]
  simp only [Gen.hostOps0, Gen.hostOps0_1, Gen.hostOps0_2, List.flatten_cons, List.flatten_nil, List.append_nil, List.cons_append, List.nil_append]
  after_results
  rfl

/-- The row of biases: the bias as one row. -/
theorem bsArr_eq (c : Dev nD) : bsArr m c = shapeCast S1x64 (bArr m c) shapeCasts_S64_S1x64 := by
  show (V m c main_v5 : S1x64.Idx → EReal) = _
  dsimp only [Gen.V, Gen.V0]
  simp only [Gen.hostOps0, Gen.hostOps0_1, Gen.hostOps0_2, List.flatten_cons, List.flatten_nil, List.append_nil, List.cons_append, List.nil_append]
  after_results
  rfl

/-! ## The same, read at an index -/

/-- A column of the padded signal before the padding is the signal's. -/
theorem xpArr_apply (c : Dev nD) (b : Fin 16) (col : Nat) (h1 : col < 65664) (h2 : col < 65536) :
    xpArr m c (ix2 b ⟨col, h1⟩) = xArr m c (ix2 b ⟨col, h2⟩) := by
  rw [xpArr_eq]
  exact pad_apply_of_inside _ _ _ _ _ _ _ _ _ fun a => match a with
    | ⟨0, _⟩ => by show b.val = 0 + b.val * (0 + 1); omega
    | ⟨1, _⟩ => by show col = 0 + col * (0 + 1); omega

/-- Entry (h, k) of the transposed weights is entry (k, h) of the weights. -/
theorem wtArr_apply (c : Dev nD) (h k : Fin 64) : wtArr m c (ix2 h k) = wArr m c (ix2 k h) := by
  rw [wtArr_eq, truncf_apply]
  exact transpose_ix2_apply _ _ h k

theorem reduces_S64x64_S64_d1 : S64x64.Reduces [1] S64 := by decide

/-- Entry k of the row of weight sums is the sum of row k of the weights. -/
theorem wsArr_apply (c : Dev nD) (k : Fin 64) : wsArr m c (ix2 0 k) = ∑ h : Fin 64, wArr m c (ix2 k h) := by
  rw [wsArr_eq, shapeCast_a_1a_apply, hostReduceAdd_apply,
    Ideal.hostReduceAdd_single reducesTo_S64x64_S64_d1 reduces_S64x64_S64_d1, constant_apply, Ideal.ofBits_zero_f32, zero_add]
  show ∑ h : Fin 64, wArr m c (reduces_S64x64_S64_d1.lift (ix1 k) h) = _
  refine Finset.sum_congr rfl fun h _ => congrArg _ (funext fun a => Fin.ext ?_)
  match a with
  | ⟨0, _⟩ => rfl
  | ⟨1, _⟩ => rfl

/-- Entry k of the row of biases is entry k of the bias. -/
theorem bsArr_apply (c : Dev nD) (k : Fin 64) : bsArr m c (ix2 0 k) = bArr m c (ix1 k) := by
  rw [bsArr_eq, shapeCast_a_1a_apply]

end Cert.KernelIdeal.KEntry

end
-- ==== Proof.KArr.lean ====
/-
  From blocks to the array: what each grid point writes back is its block of ONE function of the
  three arguments (row b, flat column col: window col / 64, channel col % 64), the blocks cover
  the array, so the array the region leaves is that function.
-/
import proofs.«415342_j17059610100042_3_alg».proof.Proof.Gen.KernelIdeal.Frame
import proofs.«415342_j17059610100042_3_alg».proof.Proof.Spec
import proofs.«415342_j17059610100042_3_alg».proof.Proof.KBlock
import proofs.«415342_j17059610100042_3_alg».proof.Proof.KEntry
import Idealize.ShloMosaic.Lib.Pipeline.Value

set_option maxRecDepth 16384

noncomputable section

namespace Cert.KernelIdeal.KArr

open Idealize.ShloMosaic Idealize.ShloMosaic.ValueIdx Idealize.ShloMosaic.TcCoe Idealize.SL.Sem Cert.KernelIdeal Cert.KernelIdeal.Gen

/-! ## One block's formula is the whole result's -/

/-- The result before its last reshape: row b, flat column col holds the entry of window
    col / 64 and channel col % 64. -/
def flatArr (x : Hankel.SX.Idx → EReal) (W : Hankel.SW.Idx → EReal) (bias : Hankel.SB.Idx → EReal) :
    S16x4190272.Idx → EReal :=
  fun j => Hankel.kerVal x W bias (j 0)
    ⟨(j 1).val / 64, by have h : (j 1).val < 4190272 := (j 1).isLt; omega⟩
    ⟨(j 1).val % 64, Nat.mod_lt _ (by decide)⟩

theorem flatArr_ix2 (x : Hankel.SX.Idx → EReal) (W : Hankel.SW.Idx → EReal) (bias : Hankel.SB.Idx → EReal)
    (b : Fin 16) (n : Nat) (hn : n < 4190272) :
    flatArr x W bias (ix2 b ⟨n, hn⟩) = Hankel.kerVal x W bias b ⟨n / 64, by omega⟩ ⟨n % 64, Nat.mod_lt _ (by decide)⟩ := rfl

/-- The block's formula over the four arrays the body sees is the result's formula over the
    arguments, when those four arrays are the padded signal, the transposed weights, the weights'
    row sums and the bias row, and the window read lies before the padding. -/
theorem blkVal_eq_kerVal (xp : Hankel.SXP.Idx → EReal) (wt : Hankel.SW.Idx → EReal) (ws bs : Hankel.SRow.Idx → EReal)
    (x : Hankel.SX.Idx → EReal) (W : Hankel.SW.Idx → EReal) (bias : Hankel.SB.Idx → EReal)
    (hxp : ∀ (b : Fin 16) (col : Nat) (h1 : col < 65664) (h2 : col < 65536), xp (ix2 b ⟨col, h1⟩) = x (ix2 b ⟨col, h2⟩))
    (hwt : ∀ h k : Fin 64, wt (ix2 h k) = W (ix2 k h))
    (hws : ∀ k : Fin 64, ws (ix2 0 k) = ∑ h : Fin 64, W (ix2 k h))
    (hbs : ∀ k : Fin 64, bs (ix2 0 k) = bias (ix1 k))
    (start : Nat) (hs : start + 2176 ≤ 65664) (b : Fin 16) (r : Fin 2048) (k : Fin 64)
    (i : Fin 65473) (k' : Fin 64) (hi : i.val = start + r.val) (hk : k'.val = k.val) :
    Hankel.blkVal xp wt ws bs start hs b r k = Hankel.kerVal x W bias b i k' := by
  obtain rfl : k' = k := Fin.ext hk
  have hp : ∀ h : Fin 64, Hankel.pwin xp start hs b r h = Hankel.win x b i h := fun h => by
    unfold Hankel.pwin Hankel.win
    have hi' := i.isLt; have hh := h.isLt
    rw [hxp b _ _ (by omega)]
    exact congrArg x (congrArg (ix2 b) (Fin.ext (by show start + r.val + h.val = i.val + h.val; omega)))
  unfold Hankel.blkVal Hankel.kerVal
  simp only [hp, hwt, hws, hbs]

/-! ## The grid's index maps, decided once -/

/-- The input windows' blocks are their whole arrays at every point. -/
theorem in_idx : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0) :=
  (by decide +kernel : ∀ t : Fin grid0.N, _)

/-- The output's block at point t: all 16 rows, columns from t * 131072, 131072 of them, the last
    block cut at the array's end. -/
theorem out_idx : ∀ t : Fin cfg0.N, win0_4.index t (0 : Fin 2) = 0 ∧ win0_4.index t (1 : Fin 2) = t.val
    ∧ win0_4.xsize (grid0.coords t) (0 : Fin 2) = 16
    ∧ win0_4.xsize (grid0.coords t) (1 : Fin 2) = (if t.val = 31 then 127040 else 131072) :=
  (by decide +kernel : ∀ t : Fin grid0.N, _)

/-- The body's slice of the padded signal starts at column 2048 t. -/
theorem off_idx : ∀ t : Fin cfg0.N, k0_off1 (grid0.coords t) 1 = 2048 * t.val :=
  (by decide +kernel : ∀ t : Fin grid0.N, _)

variable (m : (ℓ : Loc nD τ sig) → Buf (Elt Ideal) ℓ)

/-! ## Each input block is its whole array -/

theorem iblk0_eq (c : Dev nD) (t : Fin cfg0.N) : (iblk m c 0 t : S16x65664.Idx → EReal) = KEntry.xpArr m c := by
  funext y
  show V m c main_v0 (((cfg0.win 0).blk t).view.emb y) = V m c main_v0 y
  refine congrArg _ (funext fun a => Fin.ext ?_)
  obtain ⟨e, -, -, -⟩ := in_idx t
  match a with
  | ⟨0, _⟩ => show win0_0.index t (0 : Fin 2) * 16 + 1 * (y 0).val = (y 0).val; rw [e 0]; omega
  | ⟨1, _⟩ => show win0_0.index t (1 : Fin 2) * 65664 + 1 * (y 1).val = (y 1).val; rw [e 1]; omega

theorem iblk1_eq (c : Dev nD) (t : Fin cfg0.N) : (iblk m c 1 t : S64x64.Idx → EReal) = KEntry.wtArr m c := by
  funext y
  show V m c main_v2 (((cfg0.win 1).blk t).view.emb y) = V m c main_v2 y
  refine congrArg _ (funext fun a => Fin.ext ?_)
  obtain ⟨-, e, -, -⟩ := in_idx t
  match a with
  | ⟨0, _⟩ => show win0_1.index t (0 : Fin 2) * 64 + 1 * (y 0).val = (y 0).val; rw [e 0]; omega
  | ⟨1, _⟩ => show win0_1.index t (1 : Fin 2) * 64 + 1 * (y 1).val = (y 1).val; rw [e 1]; omega

theorem iblk2_eq (c : Dev nD) (t : Fin cfg0.N) : (iblk m c 2 t : S1x64.Idx → EReal) = KEntry.wsArr m c := by
  funext y
  show V m c main_v4 (((cfg0.win 2).blk t).view.emb y) = V m c main_v4 y
  refine congrArg _ (funext fun a => Fin.ext ?_)
  obtain ⟨-, -, e, -⟩ := in_idx t
  match a with
  | ⟨0, _⟩ => show win0_2.index t (0 : Fin 2) * 1 + 1 * (y 0).val = (y 0).val; rw [e 0]; omega
  | ⟨1, _⟩ => show win0_2.index t (1 : Fin 2) * 64 + 1 * (y 1).val = (y 1).val; rw [e 1]; omega

theorem iblk3_eq (c : Dev nD) (t : Fin cfg0.N) : (iblk m c 3 t : S1x64.Idx → EReal) = KEntry.bsArr m c := by
  funext y
  show V m c main_v5 (((cfg0.win 3).blk t).view.emb y) = V m c main_v5 y
  refine congrArg _ (funext fun a => Fin.ext ?_)
  obtain ⟨-, -, -, e⟩ := in_idx t
  match a with
  | ⟨0, _⟩ => show win0_3.index t (0 : Fin 2) * 1 + 1 * (y 0).val = (y 0).val; rw [e 0]; omega
  | ⟨1, _⟩ => show win0_3.index t (1 : Fin 2) * 64 + 1 * (y 1).val = (y 1).val; rw [e 1]; omega

/-! ## What the body leaves at one entry of its block -/

/-- Over any staging memrefs and any four input arrays that are the padded signal, the transposed
    weights, the row sums and the bias row of arguments x, W, bias: at grid point tt the entry of
    the block at row b and column q is the result's entry at row b and column tt * 131072 + q. -/
theorem block_entry (c : Dev nD) (i : grid0.Coords)
    (arg1 : Memref sig .tc .vmem S16x65664 .f32) (harg1 : arg1.IsWhole) (arg2 : Memref sig .tc .vmem S64x64 .bf16) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S16x131072 .f32) (harg5 : arg5.IsWhole)
    (x0 : Vec Ideal S16x65664 .f32) (x1 : Vec Ideal S64x64 .bf16) (x2 : Vec Ideal S1x64 .f32) (x3 : Vec Ideal S1x64 .f32)
    (x : Hankel.SX.Idx → EReal) (W : Hankel.SW.Idx → EReal) (bias : Hankel.SB.Idx → EReal)
    (hx0 : ∀ (b : Fin 16) (col : Nat) (h1 : col < 65664) (h2 : col < 65536), x0 (ix2 b ⟨col, h1⟩) = x (ix2 b ⟨col, h2⟩))
    (hx1 : ∀ h k : Fin 64, x1 (ix2 h k) = W (ix2 k h))
    (hx2 : ∀ k : Fin 64, x2 (ix2 0 k) = ∑ h : Fin 64, W (ix2 k h))
    (hx3 : ∀ k : Fin 64, x3 (ix2 0 k) = bias (ix1 k))
    (tt : Nat) (htt : tt < 32) (hst : k0_off1 i 1 = 2048 * tt)
    (b : Fin 16) (q : Nat) (hq : q < 131072) (hcol : tt * 131072 + q < 4190272) :
    out0_A_4 (F := Ideal) c i arg1 harg1 arg2 harg2 arg3 harg3 arg4 harg4 arg5 harg5 x0 x1 x2 x3 (ix2 b ⟨q, hq⟩)
      = flatArr x W bias (ix2 b ⟨tt * 131072 + q, hcol⟩) := by
  have ey : (ix2 b ⟨q, hq⟩ : S16x131072.Idx) = ix2 b ⟨(q / 64) * 64 + q % 64, by omega⟩ :=
    congrArg (ix2 b) (Fin.ext (by show q = q / 64 * 64 + q % 64; omega))
  rw [ey, flatArr_ix2]
  refine (KBlock.out_apply c i arg1 harg1 arg2 harg2 arg3 harg3 arg4 harg4 arg5 harg5 x0 x1 x2 x3 (2048 * tt) hst (by omega) b
    ⟨q / 64, by omega⟩ ⟨q % 64, Nat.mod_lt _ (by decide)⟩).trans ?_
  exact blkVal_eq_kerVal x0 x1 x2 x3 x W bias hx0 hx1 hx2 hx3 (2048 * tt) (by omega) b ⟨q / 64, by omega⟩ ⟨q % 64, Nat.mod_lt _ (by decide)⟩
    ⟨(tt * 131072 + q) / 64, by omega⟩ ⟨(tt * 131072 + q) % 64, Nat.mod_lt _ (by decide)⟩
    (by show (tt * 131072 + q) / 64 = 2048 * tt + q / 64; omega) (by show (tt * 131072 + q) % 64 = q % 64; omega)

/-! ## What each point writes back -/

/-- WHAT POINT t WRITES BACK is block t of the flat result of the arguments. -/
theorem flushed_eq (c : Dev nD) (t : Fin cfg0.N) :
    (dats m 0 c).flushed 4 t
      = ((cfg0.win 4).blk t).view.read (Elt Ideal) (flatArr (KEntry.xArr m c) (KEntry.wArr m c) (KEntry.bArr m c)) := by
  show (cfg0.win 4).cut (grid0.coords t) ((dats m 0 c).after 4 t) = _
  rw [after0_4]
  unfold outsAt0
  funext j
  obtain ⟨o0, o1, o2, o3⟩ := out_idx t
  have ht : t.val < 32 := lt_of_lt_of_eq t.isLt N_0
  have hj0 : (j 0).val < 16 := lt_of_lt_of_eq (j 0).isLt o2
  have hj1 : (j 1).val < (if t.val = 31 then 127040 else 131072) := lt_of_lt_of_eq (j 1).isLt o3
  have hq : (j 1).val < 131072 := by split at hj1 <;> omega
  have hcol : t.val * 131072 + (j 1).val < 4190272 := by split at hj1 <;> omega
  have ey : ((cfg0.win 4).xinj (grid0.coords t) j : S16x131072.Idx) = ix2 ⟨(j 0).val, hj0⟩ ⟨(j 1).val, hq⟩ :=
    funext fun a => Fin.ext (by
      match a with
      | ⟨0, _⟩ => rfl
      | ⟨1, _⟩ => rfl)
  have ez : (((cfg0.win 4).blk t).view.emb j : S16x4190272.Idx) = ix2 ⟨(j 0).val, hj0⟩ ⟨t.val * 131072 + (j 1).val, hcol⟩ :=
    funext fun a => Fin.ext (by
      match a with
      | ⟨0, _⟩ => show win0_4.index t (0 : Fin 2) * 16 + 1 * (j 0).val = (j 0).val; rw [o0]; omega
      | ⟨1, _⟩ => show win0_4.index t (1 : Fin 2) * 131072 + 1 * (j 1).val = t.val * 131072 + (j 1).val; rw [o1]; omega)
  show out0_A_4 (F := Ideal) c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) ((cfg0.win 4).xinj (grid0.coords t) j)
    = flatArr (KEntry.xArr m c) (KEntry.wArr m c) (KEntry.bArr m c) (((cfg0.win 4).blk t).view.emb j)
  refine (congrArg (out0_A_4 (F := Ideal) c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t)) ey).trans ?_
  refine Eq.trans ?_ (congrArg (flatArr (KEntry.xArr m c) (KEntry.wArr m c) (KEntry.bArr m c)) ez.symm)
  exact block_entry c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (KEntry.xArr m c) (KEntry.wArr m c) (KEntry.bArr m c)
    (fun b col h1 h2 => (congrFun (iblk0_eq m c t) (ix2 b ⟨col, h1⟩)).trans (KEntry.xpArr_apply m c b col h1 h2))
    (fun h k => (congrFun (iblk1_eq m c t) (ix2 h k)).trans (KEntry.wtArr_apply m c h k))
    (fun k => (congrFun (iblk2_eq m c t) (ix2 0 k)).trans (KEntry.wsArr_apply m c k))
    (fun k => (congrFun (iblk3_eq m c t) (ix2 0 k)).trans (KEntry.bsArr_apply m c k))
    t.val ht (off_idx t) ⟨(j 0).val, hj0⟩ (j 1).val hq hcol

/-! ## The blocks cover the array -/

/-- An index of the array is in point t's block iff each coordinate is in the block's range. -/
theorem mem_blk (t : Fin cfg0.N) (i : S16x4190272.Idx) :
    i ∈ ((cfg0.win 4).blk t).view.set ↔ ∀ a : Fin 2, win0_4.index t a * S16x131072.size a ≤ (i a).val
      ∧ (i a).val < win0_4.index t a * S16x131072.size a + win0_4.xsize (grid0.coords t) a := by
  show i ∈ ((View.whole main_v6).slice (win0_4.rect t)).set ↔ _
  rw [View.set_slice_whole, Rect.mem_set_unit]
  exact Iff.rfl

/-- Column col lies in block col / 131072, and every point writes its block back. -/
theorem cover (i : S16x4190272.Idx) :
    ∃ t : Fin cfg0.N, (cfg0.win 4).flush t = true ∧ i ∈ ((cfg0.win 4).blk t).view.set := by
  have h0 : (i 0).val < 16 := (i 0).isLt
  have h1 : (i 1).val < 4190272 := (i 1).isLt
  have hN : (i 1).val / 131072 < cfg0.N := lt_of_lt_of_eq (show (i 1).val / 131072 < 32 by omega) N_0.symm
  refine ⟨⟨(i 1).val / 131072, hN⟩, flush0_4 _, ?_⟩
  obtain ⟨o0, o1, o2, o3⟩ := out_idx ⟨(i 1).val / 131072, hN⟩
  rw [mem_blk]
  intro a
  match a with
  | ⟨0, _⟩ =>
    show win0_4.index ⟨(i 1).val / 131072, hN⟩ (0 : Fin 2) * 16 ≤ (i 0).val
      ∧ (i 0).val < win0_4.index ⟨(i 1).val / 131072, hN⟩ (0 : Fin 2) * 16 + win0_4.xsize (grid0.coords ⟨(i 1).val / 131072, hN⟩) (0 : Fin 2)
    rw [o0, o2]; omega
  | ⟨1, _⟩ =>
    show win0_4.index ⟨(i 1).val / 131072, hN⟩ (1 : Fin 2) * 131072 ≤ (i 1).val
      ∧ (i 1).val < win0_4.index ⟨(i 1).val / 131072, hN⟩ (1 : Fin 2) * 131072 + win0_4.xsize (grid0.coords ⟨(i 1).val / 131072, hN⟩) (1 : Fin 2)
    rw [o1, o3]
    show (i 1).val / 131072 * 131072 ≤ (i 1).val
      ∧ (i 1).val < (i 1).val / 131072 * 131072 + (if (i 1).val / 131072 = 31 then 127040 else 131072)
    split <;> omega

/-- THE ARRAY the region leaves: the flat result of the arguments. -/
theorem final (c : Dev nD) :
    (dats m 0 c).arrAt 4 cfg0.N = flatArr (KEntry.xArr m c) (KEntry.wArr m c) (KEntry.bArr m c) :=
  (dats m 0 c).arrAt_eq_of_cover 4 (flatArr (KEntry.xArr m c) (KEntry.wArr m c) (KEntry.bArr m c))
    (fun t _ => flushed_eq m c t) cover

end Cert.KernelIdeal.KArr

end
-- ==== Proof.KRun.lean ====
/-
  The kernel's run with its results named: the result array holds `Hankel.kerArr` of the three
  argument arrays, the scalar result is 63, the arguments end unchanged.

  The array the region leaves is the flat result (row b, column i * 64 + k holds entry (b, i, k));
  the line after the region reshapes it to [16, 65473, 64], which reads the same row-major
  position; the last line writes the scalar; no line after the region touches the arguments.
-/
import proofs.«415342_j17059610100042_3_alg».proof.Proof.Gen.KernelIdeal.Frame
import proofs.«415342_j17059610100042_3_alg».proof.Proof.Spec
import proofs.«415342_j17059610100042_3_alg».proof.Proof.KBlock
import proofs.«415342_j17059610100042_3_alg».proof.Proof.KEntry
import proofs.«415342_j17059610100042_3_alg».proof.Proof.KArr
import Idealize.ShloMosaic.Lib.Pipeline.Value
import Idealize.ShloMosaic.Lib.ValueLayout

set_option maxRecDepth 16384

noncomputable section

namespace Cert.KernelIdeal.KValue

open Idealize.ShloMosaic Idealize.ShloMosaic.ValueIdx Idealize.ShloMosaic.TcCoe Idealize.SL.Sem Cert.KernelIdeal Cert.KernelIdeal.Gen

section Tail

variable (m : (ℓ : Loc nD τ sig) → Buf (Elt Ideal) ℓ)

/-! ## The host lines after the region -/

/-- The flat result reshaped to [16, 65473, 64] is the result: flat column i * 64 + k of row b
    is entry (b, i, k). -/
theorem reshape_flatArr (x : Hankel.SX.Idx → EReal) (W : Hankel.SW.Idx → EReal) (bias : Hankel.SB.Idx → EReal) :
    shapeCast S16x65473x64 (KArr.flatArr x W bias) shapeCasts_S16x4190272_S16x65473x64 = Hankel.kerArr x W bias := by
  funext j
  obtain ⟨b, i, k, rfl⟩ : ∃ (b : Fin 16) (i : Fin 65473) (k : Fin 64), j = ix3 b i k := ⟨j 0, j 1, j 2, eq_ix3 j⟩
  have hi := i.isLt; have hk := k.isLt
  refine (shapeCast_apply (KArr.flatArr x W bias) shapeCasts_S16x4190272_S16x65473x64 (ix3 b i k)
    (ix2 b ⟨i.val * 64 + k.val, by omega⟩) (by
      rw [Shape.rowMajor_val_two, Shape.rowMajor_val_three]
      show b.val * 4190272 + (i.val * 64 + k.val) = (b.val * 65473 + i.val) * 64 + k.val
      omega)).trans ?_
  rw [KArr.flatArr_ix2]
  show Hankel.kerVal x W bias b _ _ = Hankel.kerVal x W bias b i k
  refine congr (congrArg (Hankel.kerVal x W bias b) (Fin.ext ?_)) (Fin.ext ?_)
  · show (i.val * 64 + k.val) / 64 = i.val; omega
  · show (i.val * 64 + k.val) % 64 = k.val; omega

/-- After the lines that follow the region the result array holds the result of the arguments. -/
theorem tail_v7 (c : Dev nD) :
    Pipeline.afterTail₀ cfgs (dats m) 0 (V0 m) [hostOps1] c main_v7
      = Hankel.kerArr (KEntry.xArr m c) (KEntry.wArr m c) (KEntry.bArr m c) := by
  have hw : Pipeline.withArrays (cfgs 0).spec c (V0 m c) (fun w => (dats m 0 c).arrAt w (cfgs 0).N) (Proc.devRef .tc main_v6)
      = KArr.flatArr (KEntry.xArr m c) (KEntry.wArr m c) (KEntry.bArr m c) :=
    (Pipeline.withArrays_arr spec0 launch0.win.arr_inj c _ _ 4).trans (KArr.final m c)
  unfold Pipeline.afterTail₀
  show StableHlo.after hostOps1 _ (Proc.devRef .tc main_v7) = _
  after_results
  rw [hw]
  exact reshape_flatArr _ _ _

/-- and the scalar result is 63. -/
theorem tail_c0 (c : Dev nD) :
    Pipeline.afterTail₀ cfgs (dats m) 0 (V0 m) [hostOps1] c main_c_0 = (constantI S_ 32 63#32 : IVec S_ 32) := by
  unfold Pipeline.afterTail₀
  show StableHlo.after hostOps1 _ (Proc.devRef .tc main_c_0) = _
  after_results

end Tail

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = Hankel.kerArr (m ((c.tc : Thread nD τ).loc main_arg0)) (m ((c.tc : Thread nD τ).loc main_arg1)) (m ((c.tc : Thread nD τ).loc main_arg2))
      ∧ r.2.mem ((c.tc : Thread nD τ).loc main_c_0) = (constantI S_ 32 63#32 : IVec S_ 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (tail_v7 m c),
      ((h c).2 main_c_0 (Pipeline.mem_restRefs_of main_c_0 (by decide) (by decide))).trans (tail_c0 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (Gen.run_main m ρ)

end Cert.KernelIdeal.KValue

end
-- ==== Proof.RefTerm.lean ====
/-
  The reference's @main as ONE pure function of its three argument arrays: every operation of the
  printed program in order, the outlined functions (the zero left-pad, the unbiased standard
  deviation with its variance and its guard on the divisor, the clamp at zero) written at their call
  sites over the same operands.
-/
import proofs.«415342_j17059610100042_3_alg».proof.ReferenceIdeal
import proofs.«415342_j17059610100042_3_alg».proof.Proof.Gen.ReferenceIdeal
import Idealize.ShloMosaic.PureOps.Ideal

noncomputable section

namespace Cert.ReferenceIdeal.RefValue

open Idealize.ShloMosaic Cert.ReferenceIdeal Cert.ReferenceIdeal.Facts₀

/-- The windows the reference gathers: the signal padded with 63 zeros on the left, indexed at
    `t + j` (a negative index would wrap by the padded length; none is negative). -/
def windows (x : FVec Ideal S16x65536 .f32) : FVec Ideal S16x65536x64 .f32 :=
  let c : IVec S_ 32 := constantI S_ 32 0#32
  let p0 : FVec Ideal S_ .f32 := sitofp .f32 c
  let v0 : FVec Ideal S16x65599 .f32 := pad S16x65599 ![0, 63] ![0, 0] ![0, 0] x p0 pads_S16x65536_S16x65599_000_6300 h_S_
  let v1 : IVec S65536 32 := iotaInDim S65536 32 0
  let v2 : IVec S65536x1 32 := broadcastInDim S65536x1 ![0] bcast_S65536_S65536x1_0 v1
  let v3 : IVec S64 32 := iotaInDim S64 32 0
  let v4 : IVec S1x64 32 := broadcastInDim S1x64 ![1] bcast_S64_S1x64_1 v3
  let v5 : IVec S65536x64 32 := broadcastInDim S65536x64 ![0, 1] bcast_S65536x1_S65536x64_0_1 v2
  let v6 : IVec S65536x64 32 := broadcastInDim S65536x64 ![0, 1] bcast_S1x64_S65536x64_0_1 v4
  let v7 : IVec S65536x64 32 := addi v5 v6
  let c_0 : IVec S_ 32 := constantI S_ 32 0#32
  let v8 : IVec S65536x64 32 := broadcastInDim S65536x64 ![] bcast_S_S65536x64 c_0
  let v9 : IVec S65536x64 1 := cmpi .slt v7 v8
  let c_1 : IVec S_ 32 := constantI S_ 32 65599#32
  let v10 : IVec S65536x64 32 := broadcastInDim S65536x64 ![] bcast_S_S65536x64 c_1
  let v11 : IVec S65536x64 32 := addi v7 v10
  let v12 : IVec S65536x64 32 := select v9 v11 v7
  let v13 : IVec S65536x64x1 32 := broadcastInDim S65536x64x1 ![0, 1] bcast_S65536x64_S65536x64x1_0_1 v12
  Host.gather gather_S16x65599_S65536x64x1_S16x65536x64_0_1_n_n_1_2_161 v0 v13

/-- The mean of each window, kept as a column: the sum over the window divided by 64. -/
def meanCol (w : FVec Ideal S16x65536x64 .f32) : FVec Ideal S16x65536x1 .f32 :=
  let cst : FVec Ideal S_ .f32 := constant S_ .f32 0x00000000#32
  let v15 : FVec Ideal S16x65536 .f32 := Host.reduceAdd w cst reducesTo_S16x65536x64_S16x65536_d2 h_S_
  let v16 : FVec Ideal S16x65536x1 .f32 := broadcastInDim S16x65536x1 ![0, 1] bcast_S16x65536_S16x65536x1_0_1 v15
  let cst_2 : FVec Ideal S_ .f32 := constant S_ .f32 0x42800000#32
  let v17 : FVec Ideal S16x65536x1 .f32 := broadcastInDim S16x65536x1 ![] bcast_S_S16x65536x1 cst_2
  Host.divf v16 v17

/-- The unbiased standard deviation of each window, kept as a column: the square root of the sum of
    squared deviations from the mean over `64 − 1`, the quotient kept where that divisor is positive. -/
def stdCol (w : FVec Ideal S16x65536x64 .f32) : FVec Ideal S16x65536x1 .f32 :=
  let c_3 : IVec S_ 32 := constantI S_ 32 1#32
  let cst : FVec Ideal S_ .f32 := constant S_ .f32 0x00000000#32
  let v0 : FVec Ideal S16x65536 .f32 := Host.reduceAdd w cst reducesTo_S16x65536x64_S16x65536_d2 h_S_
  let v1 : FVec Ideal S16x65536x1 .f32 := broadcastInDim S16x65536x1 ![0, 1] bcast_S16x65536_S16x65536x1_0_1 v0
  let cst_0 : FVec Ideal S_ .f32 := constant S_ .f32 0x42800000#32
  let v2 : FVec Ideal S16x65536x1 .f32 := broadcastInDim S16x65536x1 ![] bcast_S_S16x65536x1 cst_0
  let v3 : FVec Ideal S16x65536x1 .f32 := Host.divf v1 v2
  let v4 : FVec Ideal S16x65536x64 .f32 := broadcastInDim S16x65536x64 ![0, 1, 2] bcast_S16x65536x1_S16x65536x64_0_1_2 v3
  let v5 : FVec Ideal S16x65536x64 .f32 := subf w v4
  let v6 : FVec Ideal S16x65536x64 .f32 := mulf v5 v5
  let v7 : FVec Ideal S_ .f32 := sitofp .f32 c_3
  let cst_1 : FVec Ideal S_ .f32 := constant S_ .f32 0x42800000#32
  let v8 : FVec Ideal S_ .f32 := subf cst_1 v7
  let cst_2 : FVec Ideal S_ .f32 := constant S_ .f32 0x00000000#32
  let v9 : FVec Ideal S16x65536 .f32 := Host.reduceAdd v6 cst_2 reducesTo_S16x65536x64_S16x65536_d2 h_S_
  let v10 : FVec Ideal S16x65536x1 .f32 := broadcastInDim S16x65536x1 ![0, 1] bcast_S16x65536_S16x65536x1_0_1 v9
  let v11 : FVec Ideal S16x65536x1 .f32 := broadcastInDim S16x65536x1 ![] bcast_S_S16x65536x1 v8
  let v12 : FVec Ideal S16x65536x1 .f32 := Host.divf v10 v11
  let cst_3 : FVec Ideal S_ .f32 := constant S_ .f32 0x00000000#32
  let v13 : IVec S_ 1 := cmpf .ogt v8 cst_3
  let cst_4 : FVec Ideal S_ .f32 := constant S_ .f32 0x7FC00000#32
  let w0 : FVec Ideal S_ .f32 := id cst_4
  let w1 : FVec Ideal S16x65536x1 .f32 := broadcastInDim S16x65536x1 ![] bcast_S_S16x65536x1 w0
  let w2 : FVec Ideal S16x65536x1 .f32 := select (broadcastInDim S16x65536x1 ![] bcast_S_S16x65536x1 v13) v12 w1
  Host.sqrt w2

/-- The whole reference: windows, their mean and deviation, the normalised windows against the
    weights, the bias, the clamp at zero, and the rows from 63 on. -/
def refTerm (x : FVec Ideal S16x65536 .f32) (W : FVec Ideal S64x64 .f32) (bias : FVec Ideal S64 .f32) :
    FVec Ideal S16x65473x64 .f32 :=
  let v14 : FVec Ideal S16x65536x64 .f32 := windows x
  let v18 : FVec Ideal S16x65536x1 .f32 := meanCol v14
  let v19 : FVec Ideal S16x65536x1 .f32 := stdCol v14
  let v20 : FVec Ideal S16x65536x64 .f32 := broadcastInDim S16x65536x64 ![0, 1, 2] bcast_S16x65536x1_S16x65536x64_0_1_2 v18
  let v21 : FVec Ideal S16x65536x64 .f32 := subf v14 v20
  let cst_4 : FVec Ideal S_ .f32 := constant S_ .f32 0x358637BD#32
  let v22 : FVec Ideal S16x65536x1 .f32 := broadcastInDim S16x65536x1 ![] bcast_S_S16x65536x1 cst_4
  let v23 : FVec Ideal S16x65536x1 .f32 := addf v19 v22
  let v24 : FVec Ideal S16x65536x64 .f32 := broadcastInDim S16x65536x64 ![0, 1, 2] bcast_S16x65536x1_S16x65536x64_0_1_2 v23
  let v25 : FVec Ideal S16x65536x64 .f32 := Host.divf v21 v24
  let v26 : FVec Ideal S16x65536x64 .f32 := Host.dotGeneral dot_S16x65536x64_S64x64_S16x65536x64_2_1_01_0_n_n none v25 W
  let v27 : FVec Ideal S1x1x64 .f32 := broadcastInDim S1x1x64 ![2] bcast_S64_S1x1x64_2 bias
  let v28 : FVec Ideal S16x65536x64 .f32 := broadcastInDim S16x65536x64 ![0, 1, 2] bcast_S1x1x64_S16x65536x64_0_1_2 v27
  let v29 : FVec Ideal S16x65536x64 .f32 := addf v26 v28
  let r0 : FVec Ideal S_ .f32 := constant S_ .f32 0x00000000#32
  let r1 : FVec Ideal S16x65536x64 .f32 := broadcastInDim S16x65536x64 ![] bcast_S_S16x65536x64 r0
  let v30 : FVec Ideal S16x65536x64 .f32 := maximumf v29 r1
  extractStridedSlice S16x65473x64 ![0, 63, 0] v30 slices_S16x65536x64_S16x65473x64_0_63_0

end Cert.ReferenceIdeal.RefValue

end
-- ==== Proof.RRun.lean ====
/-
  The reference's run: every weakly fair execution of its @main terminates with the result array at
  the composed term `refTerm` of the argument arrays, the scalar result at 63, the arguments unchanged.
-/
import proofs.«415342_j17059610100042_3_alg».proof.Proof.RefTerm
import Idealize.ShloMosaic.Lib.StableHlo.Run

set_option maxRecDepth 16384

noncomputable section

namespace Cert.ReferenceIdeal.RefValue

open Idealize.ShloMosaic Idealize.ShloMosaic.TcCoe Idealize.SL.Sem Cert.ReferenceIdeal

section Line

open Idealize.ShloMosaic.StableHlo Cert.ReferenceIdeal.Facts₀

variable {F : FTy → Type} [FloatOps F]

/-- @main as one straight line of 66 operations, in program order, each call's body written at its call
    site over that call's own buffers: the conversion of the pad value and the left pad; the window
    indices (two iotas broadcast and added, the wrap of a negative index by the padded length) and the
    gather; the window sum over 64; inside the deviation, the mean again, the squared deviations, their
    sum over `64 − 1`, the guard on that divisor with its not-a-number alternative, and the square
    root; the centred windows over the deviation plus the small constant; the product with the
    weights, the bias, the clamp at zero; the slice from row 63; the scalar 63. -/
abbrev ops : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg0 : StableHlo.TRef sig ⟨S16x65536, .f32⟩) main_call0.v0 main_call0.v1 (fun x v => pad S16x65599 ![0, 63] ![0, 0] ![0, 0] x v pads_S16x65536_S16x65599_000_6300 h_S_),
    StableHlo.nullary main_v1 (iotaInDim S65536 32 0),
    StableHlo.unary main_v1 main_v2 (broadcastInDim S65536x1 ![0] bcast_S65536_S65536x1_0 : (⟨S65536, .i32⟩ : BufTy).Contents (Elt F) → (⟨S65536x1, .i32⟩ : BufTy).Contents (Elt F)),
    StableHlo.nullary main_v3 (iotaInDim S64 32 0),
    StableHlo.unary main_v3 main_v4 (broadcastInDim S1x64 ![1] bcast_S64_S1x64_1 : (⟨S64, .i32⟩ : BufTy).Contents (Elt F) → (⟨S1x64, .i32⟩ : BufTy).Contents (Elt F)),
    StableHlo.unary main_v2 main_v5 (broadcastInDim S65536x64 ![0, 1] bcast_S65536x1_S65536x64_0_1 : (⟨S65536x1, .i32⟩ : BufTy).Contents (Elt F) → (⟨S65536x64, .i32⟩ : BufTy).Contents (Elt F)),
    StableHlo.unary main_v4 main_v6 (broadcastInDim S65536x64 ![0, 1] bcast_S1x64_S65536x64_0_1 : (⟨S1x64, .i32⟩ : BufTy).Contents (Elt F) → (⟨S65536x64, .i32⟩ : BufTy).Contents (Elt F)),
    StableHlo.binary main_v5 main_v6 main_v7 (addi : (⟨S65536x64, .i32⟩ : BufTy).Contents (Elt F) → (⟨S65536x64, .i32⟩ : BufTy).Contents (Elt F) → (⟨S65536x64, .i32⟩ : BufTy).Contents (Elt F)),
    StableHlo.nullary main_c_0 (constantI S_ 32 0#32),
    StableHlo.unary main_c_0 main_v8 (broadcastInDim S65536x64 ![] bcast_S_S65536x64 : (⟨S_, .i32⟩ : BufTy).Contents (Elt F) → (⟨S65536x64, .i32⟩ : BufTy).Contents (Elt F)),
    StableHlo.binary main_v7 main_v8 main_v9 (cmpi .slt : (⟨S65536x64, .i32⟩ : BufTy).Contents (Elt F) → (⟨S65536x64, .i32⟩ : BufTy).Contents (Elt F) → (⟨S65536x64, .i1⟩ : BufTy).Contents (Elt F)),
    StableHlo.nullary main_c_1 (constantI S_ 32 65599#32),
    StableHlo.unary main_c_1 main_v10 (broadcastInDim S65536x64 ![] bcast_S_S65536x64 : (⟨S_, .i32⟩ : BufTy).Contents (Elt F) → (⟨S65536x64, .i32⟩ : BufTy).Contents (Elt F)),
    StableHlo.binary main_v7 main_v10 main_v11 (addi : (⟨S65536x64, .i32⟩ : BufTy).Contents (Elt F) → (⟨S65536x64, .i32⟩ : BufTy).Contents (Elt F) → (⟨S65536x64, .i32⟩ : BufTy).Contents (Elt F)),
    StableHlo.ternary main_v9 main_v11 main_v7 main_v12 (select : (⟨S65536x64, .i1⟩ : BufTy).Contents (Elt F) → (⟨S65536x64, .i32⟩ : BufTy).Contents (Elt F) → (⟨S65536x64, .i32⟩ : BufTy).Contents (Elt F) → (⟨S65536x64, .i32⟩ : BufTy).Contents (Elt F)),
    StableHlo.unary main_v12 main_v13 (broadcastInDim S65536x64x1 ![0, 1] bcast_S65536x64_S65536x64x1_0_1 : (⟨S65536x64, .i32⟩ : BufTy).Contents (Elt F) → (⟨S65536x64x1, .i32⟩ : BufTy).Contents (Elt F)),
    StableHlo.binary main_v0 main_v13 main_v14 ((fun x i => Host.gather gather_S16x65599_S65536x64x1_S16x65536x64_0_1_n_n_1_2_161 x i) : (⟨S16x65599, .f32⟩ : BufTy).Contents (Elt F) → (⟨S65536x64x1, .i32⟩ : BufTy).Contents (Elt F) → (⟨S16x65536x64, .f32⟩ : BufTy).Contents (Elt F)),
    StableHlo.nullary main_cst (constant S_ .f32 0x00000000#32),
    StableHlo.binary main_v14 main_cst main_v15 ((fun x v => Host.reduceAdd x v reducesTo_S16x65536x64_S16x65536_d2 h_S_) : (⟨S16x65536x64, .f32⟩ : BufTy).Contents (Elt F) → (⟨S_, .f32⟩ : BufTy).Contents (Elt F) → (⟨S16x65536, .f32⟩ : BufTy).Contents (Elt F)),
    StableHlo.unary main_v15 main_v16 (broadcastInDim S16x65536x1 ![0, 1] bcast_S16x65536_S16x65536x1_0_1 : (⟨S16x65536, .f32⟩ : BufTy).Contents (Elt F) → (⟨S16x65536x1, .f32⟩ : BufTy).Contents (Elt F)),
    StableHlo.nullary main_cst_2 (constant S_ .f32 0x42800000#32),
    StableHlo.unary main_cst_2 main_v17 (broadcastInDim S16x65536x1 ![] bcast_S_S16x65536x1 : (⟨S_, .f32⟩ : BufTy).Contents (Elt F) → (⟨S16x65536x1, .f32⟩ : BufTy).Contents (Elt F)),
    StableHlo.binary main_v16 main_v17 main_v18 (Host.divf : (⟨S16x65536x1, .f32⟩ : BufTy).Contents (Elt F) → (⟨S16x65536x1, .f32⟩ : BufTy).Contents (Elt F) → (⟨S16x65536x1, .f32⟩ : BufTy).Contents (Elt F)),
    StableHlo.nullary main_c_3 (constantI S_ 32 1#32),
    StableHlo.TRef.nullary main_call1.call0.cst (constant S_ .f32 0x00000000#32),
    StableHlo.TRef.binary (.of main_v14 : StableHlo.TRef sig ⟨S16x65536x64, .f32⟩) main_call1.call0.cst main_call1.call0.v0 (fun x v => Host.reduceAdd x v reducesTo_S16x65536x64_S16x65536_d2 h_S_),
    StableHlo.TRef.unary main_call1.call0.v0 main_call1.call0.v1 (broadcastInDim S16x65536x1 ![0, 1] bcast_S16x65536_S16x65536x1_0_1),
    StableHlo.TRef.nullary main_call1.call0.cst_0 (constant S_ .f32 0x42800000#32),
    StableHlo.TRef.unary main_call1.call0.cst_0 main_call1.call0.v2 (broadcastInDim S16x65536x1 ![] bcast_S_S16x65536x1),
    StableHlo.TRef.binary main_call1.call0.v1 main_call1.call0.v2 main_call1.call0.v3 Host.divf,
    StableHlo.TRef.unary main_call1.call0.v3 main_call1.call0.v4 (broadcastInDim S16x65536x64 ![0, 1, 2] bcast_S16x65536x1_S16x65536x64_0_1_2),
    StableHlo.TRef.binary (.of main_v14 : StableHlo.TRef sig ⟨S16x65536x64, .f32⟩) main_call1.call0.v4 main_call1.call0.v5 subf,
    StableHlo.TRef.binary main_call1.call0.v5 main_call1.call0.v5 main_call1.call0.v6 mulf,
    StableHlo.TRef.unary (.of main_c_3 : StableHlo.TRef sig ⟨S_, .i32⟩) main_call1.call0.v7 (sitofp .f32),
    StableHlo.TRef.nullary main_call1.call0.cst_1 (constant S_ .f32 0x42800000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S16x65536x64_S16x65536_d2 h_S_),
    StableHlo.TRef.unary main_call1.call0.v9 main_call1.call0.v10 (broadcastInDim S16x65536x1 ![0, 1] bcast_S16x65536_S16x65536x1_0_1),
    StableHlo.TRef.unary main_call1.call0.v8 main_call1.call0.v11 (broadcastInDim S16x65536x1 ![] bcast_S_S16x65536x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S16x65536x1 ![] bcast_S_S16x65536x1),
    StableHlo.TRef.ternary main_call1.call0.v13 main_call1.call0.v12 main_call1.call0.call0.v1 main_call1.call0.call0.v2 (fun p a b => select (broadcastInDim S16x65536x1 ![] bcast_S_S16x65536x1 p) a b),
    StableHlo.TRef.unary main_call1.call0.call0.v2 main_call1.v1 Host.sqrt,
    StableHlo.unary main_v18 main_v20 (broadcastInDim S16x65536x64 ![0, 1, 2] bcast_S16x65536x1_S16x65536x64_0_1_2 : (⟨S16x65536x1, .f32⟩ : BufTy).Contents (Elt F) → (⟨S16x65536x64, .f32⟩ : BufTy).Contents (Elt F)),
    StableHlo.binary main_v14 main_v20 main_v21 (subf : (⟨S16x65536x64, .f32⟩ : BufTy).Contents (Elt F) → (⟨S16x65536x64, .f32⟩ : BufTy).Contents (Elt F) → (⟨S16x65536x64, .f32⟩ : BufTy).Contents (Elt F)),
    StableHlo.nullary main_cst_4 (constant S_ .f32 0x358637BD#32),
    StableHlo.unary main_cst_4 main_v22 (broadcastInDim S16x65536x1 ![] bcast_S_S16x65536x1 : (⟨S_, .f32⟩ : BufTy).Contents (Elt F) → (⟨S16x65536x1, .f32⟩ : BufTy).Contents (Elt F)),
    StableHlo.binary main_v19 main_v22 main_v23 (addf : (⟨S16x65536x1, .f32⟩ : BufTy).Contents (Elt F) → (⟨S16x65536x1, .f32⟩ : BufTy).Contents (Elt F) → (⟨S16x65536x1, .f32⟩ : BufTy).Contents (Elt F)),
    StableHlo.unary main_v23 main_v24 (broadcastInDim S16x65536x64 ![0, 1, 2] bcast_S16x65536x1_S16x65536x64_0_1_2 : (⟨S16x65536x1, .f32⟩ : BufTy).Contents (Elt F) → (⟨S16x65536x64, .f32⟩ : BufTy).Contents (Elt F)),
    StableHlo.binary main_v21 main_v24 main_v25 (Host.divf : (⟨S16x65536x64, .f32⟩ : BufTy).Contents (Elt F) → (⟨S16x65536x64, .f32⟩ : BufTy).Contents (Elt F) → (⟨S16x65536x64, .f32⟩ : BufTy).Contents (Elt F)),
    StableHlo.binary main_v25 main_arg1 main_v26 ((fun l r => Host.dotGeneral dot_S16x65536x64_S64x64_S16x65536x64_2_1_01_0_n_n none l r) : (⟨S16x65536x64, .f32⟩ : BufTy).Contents (Elt F) → (⟨S64x64, .f32⟩ : BufTy).Contents (Elt F) → (⟨S16x65536x64, .f32⟩ : BufTy).Contents (Elt F)),
    StableHlo.unary main_arg2 main_v27 (broadcastInDim S1x1x64 ![2] bcast_S64_S1x1x64_2 : (⟨S64, .f32⟩ : BufTy).Contents (Elt F) → (⟨S1x1x64, .f32⟩ : BufTy).Contents (Elt F)),
    StableHlo.unary main_v27 main_v28 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v26 main_v28 main_v29 (addf : (⟨S16x65536x64, .f32⟩ : BufTy).Contents (Elt F) → (⟨S16x65536x64, .f32⟩ : BufTy).Contents (Elt F) → (⟨S16x65536x64, .f32⟩ : BufTy).Contents (Elt F)),
    StableHlo.TRef.nullary main_call2.cst (constant S_ .f32 0x00000000#32),
    StableHlo.TRef.unary main_call2.cst main_call2.v0 (broadcastInDim S16x65536x64 ![] bcast_S_S16x65536x64),
    StableHlo.TRef.binary (.of main_v29 : StableHlo.TRef sig ⟨S16x65536x64, .f32⟩) main_call2.v0 main_call2.v1 maximumf,
    StableHlo.unary main_v30 main_v31 ((extractStridedSlice S16x65473x64 ![0, 63, 0] · slices_S16x65536x64_S16x65473x64_0_63_0) : (⟨S16x65536x64, .f32⟩ : BufTy).Contents (Elt F) → (⟨S16x65473x64, .f32⟩ : BufTy).Contents (Elt F)),
    StableHlo.nullary main_c_5 (constantI S_ 32 63#32) ]

/-- @main is that line: each called function opened at its call and sequencing reassociated, both
    sides are the same chain of steps. -/
theorem main_eq (c : Dev nD) : main (F := F) c = seq ops := by
  simp only [main, fn_pad.body, fn_std.body, fn_var.body, fn_where.body, fn_relu.body, seq, bind_assoc, pure_bind]

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., binary_bufs_sub .., binary_bufs_sub .., unary_bufs_sub .., unary_bufs_sub ..,
    binary_bufs_sub .., nullary_bufs_sub .., unary_bufs_sub .., binary_bufs_sub .., unary_bufs_sub .., nullary_bufs_sub ..⟩

attribute [local irreducible] Host.reduceAdd Host.gather Host.divf Host.sqrt pad extractStridedSlice broadcastInDim in
/-- What the result buffer holds after the line: each operation's value read at its own buffer and every
    other buffer left as it was, outermost first, gives the operations composed over the three argument
    arrays; that composition is `refTerm` once its parts (the windows, the mean column, the deviation
    column) are opened — the same operations over the same operands, the typed references' transports the
    identity at these literal buffers. The sums, the gather, the divisions and the layout operations stay
    closed throughout: the equation never looks inside them. -/
theorem v31_eq (V : Valuation τ sig (Elt Ideal)) :
    after (ops (F := Ideal)) V (Proc.devRef .tc main_v31)
      = refTerm (V (Proc.devRef .tc main_arg0)) (V (Proc.devRef .tc main_arg1)) (V (Proc.devRef .tc main_arg2)) := by
  after_results_simp
  rfl

/-- The scalar result is the last operation's constant. -/
theorem c5_eq (V : Valuation τ sig (Elt Ideal)) :
    after (ops (F := Ideal)) V (Proc.devRef .tc main_c_5) = (constantI S_ 32 63#32 : IVec S_ 32) := by
  after_results_simp

/-- No operation of the line writes an argument array. -/
theorem arg0_eq (V : Valuation τ sig (Elt Ideal)) :
    after (ops (F := Ideal)) V (Proc.devRef .tc main_arg0) = V (Proc.devRef .tc main_arg0) := by
  after_results_simp

theorem arg1_eq (V : Valuation τ sig (Elt Ideal)) :
    after (ops (F := Ideal)) V (Proc.devRef .tc main_arg1) = V (Proc.devRef .tc main_arg1) := by
  after_results_simp

theorem arg2_eq (V : Valuation τ sig (Elt Ideal)) :
    after (ops (F := Ideal)) V (Proc.devRef .tc main_arg2) = V (Proc.devRef .tc main_arg2) := by
  after_results_simp

end Line

/-- The run of a straight line ends with every buffer at the fold of the operations over the launch
    contents; read at the result, the scalar and the three arguments by the equations above. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31)
          = refTerm (m ((c.tc : Thread nD τ).loc main_arg0)) (m ((c.tc : Thread nD τ).loc main_arg1)) (m ((c.tc : Thread nD τ).loc main_arg2))
      ∧ r.2.mem ((c.tc : Thread nD τ).loc main_c_5) = (constantI S_ 32 63#32 : IVec S_ 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v31).trans (v31_eq (StableHlo.launchContents m c)),
      (h c main_c_5).trans (c5_eq (StableHlo.launchContents m c)),
      (h c main_arg0).trans (arg0_eq (StableHlo.launchContents m c)),
      (h c main_arg1).trans (arg1_eq (StableHlo.launchContents m c)),
      (h c main_arg2).trans (arg2_eq (StableHlo.launchContents m c))⟩)
    (StableHlo.run_seq scopedRefs_eq scopedSems_eq defs main (fun _ => ops) main_eq (fun _ => ops_sub) m ρ)

end Cert.ReferenceIdeal.RefValue

end
-- ==== Proof.RRead.lean ====
/-
  The reference's composed term read at a result entry: it is the formula `Hankel.refVal`.

  Stage by stage. The start indices of the gather are the words of t + j (no sum reaches 2³¹, so
  none reads negative and none is shifted by the padded length); the gather reads row b of the
  padded signal at the clamped start, and t + j is already inside the row; the padded signal at
  column c ≥ 63 is the signal at c − 63. So at result row i, whose window starts at t = i + 63,
  the window's entry h is sample i + h. The mean is the window's sum over 64; the deviation is
  the root of the summed squared deviations over 64 − 1 = 63, the guard on that divisor being
  true; both are columns read back along the window. The product with the weights contracts the
  window axis against the weights' second axis; the bias is read per channel; the clamp is the
  maximum with zero; the final slice moves row i to row i + 63.
-/
import proofs.«415342_j17059610100042_3_alg».proof.Proof.RefTerm
import proofs.«415342_j17059610100042_3_alg».proof.Proof.Spec
import Idealize.ShloMosaic.Lib.Pipeline.Value
import Idealize.ShloMosaic.Lib.KernelVsHost
import Idealize.ShloMosaic.Lib.IdealHost
import Idealize.ShloMosaic.Lib.WordArith

set_option maxRecDepth 16384

noncomputable section

namespace Cert.ReferenceIdeal.RefValue

open Idealize.ShloMosaic Idealize.ShloMosaic.ValueIdx Cert.ReferenceIdeal Cert.ReferenceIdeal.Facts₀

namespace Read

/-! ## The windows -/

/-- The gather of this program read at (b, t, j): row b of the operand at the start index of (t, j),
    read signed and clamped into the padded row. -/
theorem gather_apply {α : Type} (v : S16x65599.Idx → α) (idx : IVec S65536x64x1 32) (b : Fin 16) (t : Fin 65536) (j : Fin 64) :
    Host.gather gather_S16x65599_S65536x64x1_S16x65536x64_0_1_n_n_1_2_161 v idx (ix3 b t j)
      = v (ix2 b ⟨min (idx (ix3 t j (0 : Fin 1))).toInt.toNat 65598, by omega⟩) := by
  unfold Host.gather
  congr 1
  funext a
  refine Fin.ext ?_
  have h1 : (1 : Fin S16x65599.rank) ∈ gather_S16x65599_S65536x64x1_S16x65536x64_0_1_n_n_1_2_161.startIndexMap :=
    List.mem_singleton.mpr rfl
  match a with
  | ⟨0, _⟩ =>
    -- axis 0 is the offset axis: no start, no batching coordinate, the result's own row
    show gather_S16x65599_S65536x64x1_S16x65536x64_0_1_n_n_1_2_161.start (ix3 b t j) idx 0
        + gather_S16x65599_S65536x64x1_S16x65536x64_0_1_n_n_1_2_161.batchCoord (ix3 b t j) 0
        + gather_S16x65599_S65536x64x1_S16x65536x64_0_1_n_n_1_2_161.offCoord (ix3 b t j) 0 = b.val
    rw [GatherDims.batchCoord_eq_zero _ _ _ List.not_mem_nil]
    unfold GatherDims.start
    rw [dif_neg (show (0 : Fin S16x65599.rank) ∉ gather_S16x65599_S65536x64x1_S16x65536x64_0_1_n_n_1_2_161.startIndexMap from by decide)]
    simp only [Nat.add_zero, Nat.zero_add]
    rfl
  | ⟨1, _⟩ =>
    -- axis 1 is collapsed: the clamped start index alone
    show gather_S16x65599_S65536x64x1_S16x65536x64_0_1_n_n_1_2_161.start (ix3 b t j) idx 1
        + gather_S16x65599_S65536x64x1_S16x65536x64_0_1_n_n_1_2_161.batchCoord (ix3 b t j) 1
        + gather_S16x65599_S65536x64x1_S16x65536x64_0_1_n_n_1_2_161.offCoord (ix3 b t j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h1]
    have hsi : gather_S16x65599_S65536x64x1_S16x65536x64_0_1_n_n_1_2_161.siIdx (ix3 b t j)
        ⟨List.idxOf (1 : Fin S16x65599.rank) gather_S16x65599_S65536x64x1_S16x65536x64_0_1_n_n_1_2_161.startIndexMap,
          List.idxOf_lt_length_iff.2 h1⟩ = ix3 t j (0 : Fin 1) := by
      funext c; refine Fin.ext ?_
      match c with
      | ⟨0, _⟩ => rfl
      | ⟨1, _⟩ => rfl
      | ⟨2, _⟩ => rfl
    rw [hsi]
    rfl

/-- The start indices the reference gathers at: entry (t, j) is the word of t + j, with the padded
    length added where that word reads negative. -/
def starts : IVec S65536x64x1 32 :=
  let v1 : IVec S65536 32 := iotaInDim S65536 32 0
  let v2 : IVec S65536x1 32 := broadcastInDim S65536x1 ![0] bcast_S65536_S65536x1_0 v1
  let v3 : IVec S64 32 := iotaInDim S64 32 0
  let v4 : IVec S1x64 32 := broadcastInDim S1x64 ![1] bcast_S64_S1x64_1 v3
  let v5 : IVec S65536x64 32 := broadcastInDim S65536x64 ![0, 1] bcast_S65536x1_S65536x64_0_1 v2
  let v6 : IVec S65536x64 32 := broadcastInDim S65536x64 ![0, 1] bcast_S1x64_S65536x64_0_1 v4
  let v7 : IVec S65536x64 32 := addi v5 v6
  let c_0 : IVec S_ 32 := constantI S_ 32 0#32
  let v8 : IVec S65536x64 32 := broadcastInDim S65536x64 ![] bcast_S_S65536x64 c_0
  let v9 : IVec S65536x64 1 := cmpi .slt v7 v8
  let c_1 : IVec S_ 32 := constantI S_ 32 65599#32
  let v10 : IVec S65536x64 32 := broadcastInDim S65536x64 ![] bcast_S_S65536x64 c_1
  let v11 : IVec S65536x64 32 := addi v7 v10
  let v12 : IVec S65536x64 32 := select v9 v11 v7
  broadcastInDim S65536x64x1 ![0, 1] bcast_S65536x64_S65536x64x1_0_1 v12

/-- The windows are the gather of the padded signal at those start indices. -/
theorem windows_eq (x : FVec Ideal S16x65536 .f32) :
    windows x = Host.gather gather_S16x65599_S65536x64x1_S16x65536x64_0_1_n_n_1_2_161
      (pad S16x65599 ![0, 63] ![0, 0] ![0, 0] x (sitofp (F := Ideal) .f32 (constantI S_ 32 0#32))
        pads_S16x65536_S16x65599_000_6300 h_S_) starts := rfl

/-- Entry (t, j) of the start indices is the word of t + j: the sum is below 2³¹, so it does not
    read negative and the select keeps it. -/
theorem starts_apply (t : Fin 65536) (j : Fin 64) : starts (ix3 t j (0 : Fin 1)) = BitVec.ofNat 32 (t.val + j.val) := by
  unfold starts
  dsimp only
  rw [broadcastInDim_apply _ _ _ _ (ix2 t j) (fun a => by match a with | ⟨0, _⟩ => rfl | ⟨1, _⟩ => rfl)]
  have h5 : broadcastInDim S65536x64 ![0, 1] bcast_S65536x1_S65536x64_0_1
      (broadcastInDim S65536x1 ![0] bcast_S65536_S65536x1_0 (iotaInDim S65536 32 0)) (ix2 t j) = BitVec.ofNat 32 t.val := by
    rw [broadcastInDim_apply _ _ _ _ (ix2 t (0 : Fin 1)) (fun a => by match a with | ⟨0, _⟩ => rfl | ⟨1, _⟩ => rfl),
      broadcastInDim_apply _ _ _ _ (ix1 t) (fun a => by match a with | ⟨0, _⟩ => rfl)]
    rfl
  have h6 : broadcastInDim S65536x64 ![0, 1] bcast_S1x64_S65536x64_0_1
      (broadcastInDim S1x64 ![1] bcast_S64_S1x64_1 (iotaInDim S64 32 0)) (ix2 t j) = BitVec.ofNat 32 j.val := by
    rw [broadcastInDim_apply _ _ _ _ (ix2 (0 : Fin 1) j) (fun a => by match a with | ⟨0, _⟩ => rfl | ⟨1, _⟩ => rfl),
      broadcastInDim_apply _ _ _ _ (ix1 j) (fun a => by match a with | ⟨0, _⟩ => rfl)]
    rfl
  have h7 : addi (broadcastInDim S65536x64 ![0, 1] bcast_S65536x1_S65536x64_0_1
      (broadcastInDim S65536x1 ![0] bcast_S65536_S65536x1_0 (iotaInDim S65536 32 0)))
      (broadcastInDim S65536x64 ![0, 1] bcast_S1x64_S65536x64_0_1
      (broadcastInDim S1x64 ![1] bcast_S64_S1x64_1 (iotaInDim S64 32 0))) (ix2 t j) = BitVec.ofNat 32 (t.val + j.val) := by
    show IntOp.addi _ _ = _
    rw [h5, h6]
    show BitVec.ofNat 32 t.val + BitVec.ofNat 32 j.val = _
    rw [BitVec.ofNat_add]
  rw [select_apply, h7]
  have hlt : t.val + j.val < 2 ^ 31 := by have := t.isLt; have := j.isLt; omega
  have h9 : cmpi .slt (addi (broadcastInDim S65536x64 ![0, 1] bcast_S65536x1_S65536x64_0_1
      (broadcastInDim S65536x1 ![0] bcast_S65536_S65536x1_0 (iotaInDim S65536 32 0)))
      (broadcastInDim S65536x64 ![0, 1] bcast_S1x64_S65536x64_0_1
      (broadcastInDim S1x64 ![1] bcast_S64_S1x64_1 (iotaInDim S64 32 0))))
      (broadcastInDim S65536x64 ![] bcast_S_S65536x64 (constantI S_ 32 0#32)) (ix2 t j) = 0#1 := by
    show IntOp.cmpi .slt _ _ = _
    rw [h7, broadcastInDim_scalar_apply]
    show BitVec.ofBool ((BitVec.ofNat 32 (t.val + j.val)).slt 0#32) = 0#1
    have : (BitVec.ofNat 32 (t.val + j.val)).slt 0#32 = false := by
      rw [BitVec.slt_eq_decide, WordArith.toInt_ofNat_small _ hlt, decide_eq_false_iff_not,
        show (0#32 : BitVec 32).toInt = 0 from by decide]
      omega
    rw [this]; rfl
  rw [h9, select_zero]

/-- The window entry the reference reads for result row i: column i + 63 + h of the padded signal
    is past the 63 zeros, so it is sample i + h of the row. -/
theorem windows_apply (x : FVec Ideal S16x65536 .f32) (b : Fin 16) (i : Fin 65473) (T : Fin 65536)
    (hT : T.val = i.val + 63) (h : Fin 64) : windows x (ix3 b T h) = Hankel.win x b i h := by
  have key : ∀ c : Fin 65599, c.val = i.val + h.val + 63 →
      pad S16x65599 ![0, 63] ![0, 0] ![0, 0] x (sitofp (F := Ideal) .f32 (constantI S_ 32 0#32))
        pads_S16x65536_S16x65599_000_6300 h_S_ (ix2 b c) = Hankel.win x b i h := fun c hc => by
    unfold Hankel.win
    refine pad_apply_of_inside _ _ _ x _ _ _ (ix2 b c) _ fun a => ?_
    match a with
    | ⟨0, _⟩ => show b.val = 0 + b.val * (0 + 1); omega
    | ⟨1, _⟩ => show c.val = 63 + (i.val + h.val) * (0 + 1); omega
  rw [windows_eq, gather_apply]
  refine key _ ?_
  show min (starts (ix3 T h (0 : Fin 1))).toInt.toNat 65598 = _
  have hlt : T.val + h.val < 2 ^ 31 := by have := T.isLt; have := h.isLt; omega
  rw [starts_apply, WordArith.toInt_ofNat_small _ hlt, Int.toNat_natCast]
  have := h.isLt; have := i.isLt
  omega

/-! ## The mean and the deviation -/

/-- The host sum over a window read at (b, t): the sum of the window's 64 entries. -/
theorem rowSum_apply (w : FVec Ideal S16x65536x64 .f32) (b : Fin 16) (t : Fin 65536) :
    Host.reduceAdd w (constant (F := Ideal) S_ .f32 0x00000000#32) reducesTo_S16x65536x64_S16x65536_d2 h_S_ (ix2 b t)
      = ∑ j : Fin 64, w (ix3 b t j) := by
  rw [hostReduceAdd_apply,
    Ideal.hostReduceAdd_single reducesTo_S16x65536x64_S16x65536_d2 (by decide : S16x65536x64.Reduces [2] S16x65536)]
  rw [constant_apply, Ideal.ofBits_zero_f32, zero_add]
  refine Finset.sum_congr rfl fun j _ => congrArg w ?_
  funext a
  match a with
  | ⟨0, _⟩ => rfl
  | ⟨1, _⟩ => rfl
  | ⟨2, _⟩ => rfl

/-- A column [16, 65536, 1] read back over the window axis. -/
theorem bcastCol_apply {α : Type} (c : S16x65536x1.Idx → α) (b : Fin 16) (t : Fin 65536) (j : Fin 64) :
    broadcastInDim S16x65536x64 ![0, 1, 2] bcast_S16x65536x1_S16x65536x64_0_1_2 c (ix3 b t j) = c (ix3 b t (0 : Fin 1)) :=
  broadcastInDim_apply _ _ c _ _ fun a => by
    match a with
    | ⟨0, _⟩ => rfl
    | ⟨1, _⟩ => rfl
    | ⟨2, _⟩ => rfl

/-- A [16, 65536] array kept as a column. -/
theorem keepCol_apply {α : Type} (c : S16x65536.Idx → α) (b : Fin 16) (t : Fin 65536) :
    broadcastInDim S16x65536x1 ![0, 1] bcast_S16x65536_S16x65536x1_0_1 c (ix3 b t (0 : Fin 1)) = c (ix2 b t) :=
  broadcastInDim_apply _ _ c _ _ fun a => by
    match a with
    | ⟨0, _⟩ => rfl
    | ⟨1, _⟩ => rfl

/-- The mean column at (b, t): the window's sum over 64. -/
theorem meanCol_apply (w : FVec Ideal S16x65536x64 .f32) (b : Fin 16) (t : Fin 65536) :
    meanCol w (ix3 b t (0 : Fin 1)) = Ideal.div (∑ j : Fin 64, w (ix3 b t j)) ((64 : ℝ) : EReal) := by
  unfold meanCol
  dsimp only
  rw [hostDivf_apply, keepCol_apply, rowSum_apply, broadcastInDim_scalar_apply, constant_apply, Hankel.ofBits_64]

/-- The divisor of the unbiased variance: 64 less the integer one, 63. -/
theorem divisor_eq :
    (subf (constant (F := Ideal) S_ .f32 0x42800000#32) (sitofp .f32 (constantI S_ 32 1#32)) : FVec Ideal S_ .f32) ix0
      = ((63 : ℝ) : EReal) := by
  rw [subf_apply, constant_apply, Hankel.ofBits_64]
  show ((64 : ℝ) : EReal) - (((1#32 : BitVec 32).toInt : ℝ) : EReal) = _
  rw [show (1#32 : BitVec 32).toInt = 1 from by decide, ← EReal.coe_sub]
  norm_num

/-- The deviation column at (b, t): the root of the summed squared deviations over 63. -/
theorem stdCol_apply (w : FVec Ideal S16x65536x64 .f32) (b : Fin 16) (t : Fin 65536) :
    stdCol w (ix3 b t (0 : Fin 1))
      = Ideal.sqrt (Ideal.div
          (∑ j : Fin 64, (w (ix3 b t j) - Ideal.div (∑ j : Fin 64, w (ix3 b t j)) ((64 : ℝ) : EReal))
            * (w (ix3 b t j) - Ideal.div (∑ j : Fin 64, w (ix3 b t j)) ((64 : ℝ) : EReal)))
          ((63 : ℝ) : EReal)) := by
  unfold stdCol
  dsimp only
  show Ideal.sqrt _ = _
  congr 1
  rw [select_apply, broadcastInDim_scalar_apply, cmpf_apply, divisor_eq, constant_apply, Ideal.ofBits_zero_f32]
  rw [show FloatOps.cmpf (F := Ideal) (φ := .f32) .ogt (((63 : ℝ) : EReal)) (0 : EReal) = 1#1 from by
    show BitVec.ofBool (decide ((0 : EReal) < ((63 : ℝ) : EReal))) = 1#1
    rw [decide_eq_true (by exact_mod_cast (by norm_num : (0 : ℝ) < 63))]
    rfl]
  rw [select_one, hostDivf_apply, keepCol_apply, rowSum_apply, broadcastInDim_scalar_apply, divisor_eq]
  congr 1
  refine Finset.sum_congr rfl fun j _ => ?_
  rw [mulf_apply, subf_apply, bcastCol_apply, hostDivf_apply, keepCol_apply, rowSum_apply, broadcastInDim_scalar_apply,
    constant_apply, Hankel.ofBits_64]

/-! ## The product with the weights, and the bias -/

/-- The product's left index on the signal's row axis is the result's. -/
theorem lhs_dot_0 (j : S16x65536x64.Idx) (k : dot_S16x65536x64_S64x64_S16x65536x64_2_1_01_0_n_n.contr.Idx) :
    (dot_S16x65536x64_S64x64_S16x65536x64_2_1_01_0_n_n.lhsIdx j k 0).val = (j 0).val := by
  simp [DotDims.lhsIdx, dot_S16x65536x64_S64x64_S16x65536x64_2_1_01_0_n_n] <;> rfl
/-- … on the window-start axis the result's … -/
theorem lhs_dot_1 (j : S16x65536x64.Idx) (k : dot_S16x65536x64_S64x64_S16x65536x64_2_1_01_0_n_n.contr.Idx) :
    (dot_S16x65536x64_S64x64_S16x65536x64_2_1_01_0_n_n.lhsIdx j k 1).val = (j 1).val := by
  simp [DotDims.lhsIdx, dot_S16x65536x64_S64x64_S16x65536x64_2_1_01_0_n_n] <;> rfl
/-- … and on the window axis the contraction position. -/
theorem lhs_dot_2 (j : S16x65536x64.Idx) (k : dot_S16x65536x64_S64x64_S16x65536x64_2_1_01_0_n_n.contr.Idx) :
    (dot_S16x65536x64_S64x64_S16x65536x64_2_1_01_0_n_n.lhsIdx j k 2).val = (k ⟨0, by decide⟩).val :=
  DotDims.lhsIdx_val_of_single _ rfl j k
/-- The weights' index: the output channel on axis 0 … -/
theorem rhs_dot_0 (j : S16x65536x64.Idx) (k : dot_S16x65536x64_S64x64_S16x65536x64_2_1_01_0_n_n.contr.Idx) :
    (dot_S16x65536x64_S64x64_S16x65536x64_2_1_01_0_n_n.rhsIdx j k 0).val = (j 2).val := by
  simp [DotDims.rhsIdx, dot_S16x65536x64_S64x64_S16x65536x64_2_1_01_0_n_n] <;> rfl
/-- … and the contraction position on axis 1. -/
theorem rhs_dot_1 (j : S16x65536x64.Idx) (k : dot_S16x65536x64_S64x64_S16x65536x64_2_1_01_0_n_n.contr.Idx) :
    (dot_S16x65536x64_S64x64_S16x65536x64_2_1_01_0_n_n.rhsIdx j k 1).val = (k ⟨0, by decide⟩).val :=
  DotDims.rhsIdx_val_of_single _ rfl j k

/-- The host product read at (b, t, k): the window against row k of the weights. -/
theorem dot_apply (l : FVec Ideal S16x65536x64 .f32) (W : FVec Ideal S64x64 .f32) (b : Fin 16) (t : Fin 65536) (k : Fin 64) :
    Host.dotGeneral dot_S16x65536x64_S64x64_S16x65536x64_2_1_01_0_n_n none l W (ix3 b t k)
      = ∑ h : Fin 64, l (ix3 b t h) * W (ix2 k h) := by
  show FloatOps.dotGeneral dot_S16x65536x64_S64x64_S16x65536x64_2_1_01_0_n_n none .single l W (ix3 b t k) = _
  rw [Ideal.dotGeneral_apply,
    ← Equiv.sum_comp (contrEquiv1 dot_S16x65536x64_S64x64_S16x65536x64_2_1_01_0_n_n 64 rfl rfl).symm]
  refine Finset.sum_congr rfl fun h _ => ?_
  congr 1
  · refine congrArg l (funext fun a => Fin.ext ?_)
    match a with
    | ⟨0, _⟩ => exact lhs_dot_0 _ _
    | ⟨1, _⟩ => exact lhs_dot_1 _ _
    | ⟨2, _⟩ => exact (lhs_dot_2 _ _).trans (contrEquiv1_symm_val _ 64 rfl rfl h)
  · refine congrArg W (funext fun a => Fin.ext ?_)
    match a with
    | ⟨0, _⟩ => exact rhs_dot_0 _ _
    | ⟨1, _⟩ => exact (rhs_dot_1 _ _).trans (contrEquiv1_symm_val _ 64 rfl rfl h)

/-- The bias broadcast over rows and window starts reads the channel's bias. -/
theorem bias_apply {α : Type} (bias : S64.Idx → α) (b : Fin 16) (t : Fin 65536) (k : Fin 64) :
    broadcastInDim S16x65536x64 ![0, 1, 2] bcast_S1x1x64_S16x65536x64_0_1_2
      (broadcastInDim S1x1x64 ![2] bcast_S64_S1x1x64_2 bias) (ix3 b t k) = bias (ix1 k) := by
  rw [broadcastInDim_apply _ _ _ _ (ix3 (0 : Fin 1) (0 : Fin 1) k) (fun a => by
      match a with
      | ⟨0, _⟩ => rfl
      | ⟨1, _⟩ => rfl
      | ⟨2, _⟩ => rfl),
    broadcastInDim_apply _ _ _ _ (ix1 k) (fun a => by match a with | ⟨0, _⟩ => rfl)]

/-! ## The whole term -/

/-- The reference at result entry (b, i, k): the clamp, the bias and the product read at row
    i + 63, where every window entry is a sample of the signal. -/
theorem refTerm_apply (x : FVec Ideal S16x65536 .f32) (W : FVec Ideal S64x64 .f32) (bias : FVec Ideal S64 .f32)
    (b : Fin 16) (i : Fin 65473) (k : Fin 64) :
    refTerm x W bias (ix3 b i k) = Hankel.refVal x W bias b i k := by
  have hT : i.val + 63 < 65536 := by have := i.isLt; omega
  unfold refTerm
  dsimp only
  rw [extractStridedSlice_apply _ _ _ _ (ix3 b (⟨i.val + 63, hT⟩ : Fin 65536) k) (fun a => by
    match a with
    | ⟨0, _⟩ => show b.val = 0 + b.val; omega
    | ⟨1, _⟩ => show i.val + 63 = 63 + i.val; omega
    | ⟨2, _⟩ => show k.val = 0 + k.val; omega)]
  rw [maximumf_apply, addf_apply, dot_apply, bias_apply, broadcastInDim_scalar_apply, constant_apply, Ideal.ofBits_zero_f32]
  unfold Hankel.refVal
  dsimp only
  refine congrArg (fun s : EReal => max (s + bias (ix1 k)) 0) (Finset.sum_congr rfl fun h _ => ?_)
  rw [hostDivf_apply, subf_apply, bcastCol_apply, bcastCol_apply, addf_apply, meanCol_apply, stdCol_apply,
    broadcastInDim_scalar_apply, constant_apply]
  simp only [windows_apply x b i ⟨i.val + 63, hT⟩ rfl]

end Read

/-- The reference's composed term is the formula, entry by entry. -/
theorem refTerm_eq (x : FVec Ideal S16x65536 .f32) (W : FVec Ideal S64x64 .f32) (bias : FVec Ideal S64 .f32) :
    refTerm x W bias = Hankel.refArr x W bias := by
  funext j
  obtain ⟨b, i, k, rfl⟩ : ∃ (b : Fin 16) (i : Fin 65473) (k : Fin 64), j = ix3 b i k := ⟨j 0, j 1, j 2, eq_ix3 j⟩
  exact Read.refTerm_apply x W bias b i k

end Cert.ReferenceIdeal.RefValue

end
-- ==== Proof.lean ====
/-
  The certificate of the sliding-window normalise–project–clamp kernel against its reference.

  Both programs cut each row of the signal into windows of 64 consecutive samples and, for each
  window and each output channel, normalise the window by its mean and its unbiased deviation
  (plus a small `ε`), take the product with that channel's weights, add the bias and clamp at zero.
  The reference normalises every entry of the window and then multiplies; the kernel multiplies the
  raw window and normalises the product, using the row sums of the weights.  Over the extended reals
  the two are equal when the samples and the weights are finite, because then all quantities are real
  numbers and the rearrangement is distributivity (`Hankel.kerVal_eq_refVal`).

  The three frames: the two kernels' are their generated frame runs; the reference's is its run with
  the results dropped.  The idealization's one recorded rewrite reads the constant `1/63` exactly.
  The equivalence pairs the kernel's run, whose result array is the kernel's formula of the
  arguments, with the reference's run, whose result array is the reference's formula.
-/
import proofs.«415342_j17059610100042_3_alg».proof.Defs
import proofs.«415342_j17059610100042_3_alg».proof.Proof.Gen.Kernel
import proofs.«415342_j17059610100042_3_alg».proof.Proof.Gen.Kernel.Skeleton
import proofs.«415342_j17059610100042_3_alg».proof.Proof.Gen.Kernel.Launch
import proofs.«415342_j17059610100042_3_alg».proof.Proof.Gen.Kernel.Points
import proofs.«415342_j17059610100042_3_alg».proof.Proof.Gen.Kernel.Frame
import proofs.«415342_j17059610100042_3_alg».proof.Proof.Gen.KernelIdeal
import proofs.«415342_j17059610100042_3_alg».proof.Proof.Gen.KernelIdeal.Skeleton
import proofs.«415342_j17059610100042_3_alg».proof.Proof.Gen.KernelIdeal.Launch
import proofs.«415342_j17059610100042_3_alg».proof.Proof.Gen.KernelIdeal.Points
import proofs.«415342_j17059610100042_3_alg».proof.Proof.Gen.KernelIdeal.Frame
import proofs.«415342_j17059610100042_3_alg».proof.Proof.Gen.ReferenceIdeal
import proofs.«415342_j17059610100042_3_alg».proof.Proof.Gen.Pre_finite_inputs
import proofs.«415342_j17059610100042_3_alg».proof.Proof.Spec
import proofs.«415342_j17059610100042_3_alg».proof.Proof.Finite
import proofs.«415342_j17059610100042_3_alg».proof.Proof.KRun
import proofs.«415342_j17059610100042_3_alg».proof.Proof.RRun
import proofs.«415342_j17059610100042_3_alg».proof.Proof.RRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments as they were. -/
theorem frame_ri : Cert.frame_ReferenceIdeal := fun m ρ _ =>
  (θ_run Cert.ReferenceIdeal.defs _ _).mono (fun _ h c => (h c).2.2) (Cert.ReferenceIdeal.RefValue.run m ρ)

/-- The idealization's one rewrite: the constant named `inv_63` denotes the rational `1/63`. -/
theorem preserves : Cert.preserves_Kernel_KernelIdeal :=
  IdealRules.named_const.statement Cert.KernelIdeal.κ "inv_63" .f32 0x3C820821#32 ((1 / 63 : ℝ) : EReal) rfl

/-- From memories that agree on the arguments, the kernel's result array is its formula of them and
    the reference's is its own; under the precondition the samples and the weights are real numbers,
    and there the two formulas are one function.  Both scalar results are 63. -/
theorem algebraic : Cert.algebraic_KernelIdeal_ReferenceIdeal := by
  intro m ρ m' ρ' hpre hagree
  refine ⟨_, _, Cert.KernelIdeal.KValue.run m ρ, ?_⟩
  refine (θ_run Cert.ReferenceIdeal.defs _ _).mono (fun _ h c => ⟨?_, (h c).2.1, (h c).2.2⟩)
    (Cert.ReferenceIdeal.RefValue.run m' ρ')
  obtain ⟨hx, hW⟩ := Hankel.Finite.reals_of_pre _ _ _ (hpre c)
  rw [(h c).1, Cert.ReferenceIdeal.RefValue.refTerm_eq, (hagree c).1, (hagree c).2.1, (hagree c).2.2]
  exact (Hankel.kerArr_eq_refArr _ _ _ hx hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
